-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S_ : Shape := ⟨0, ![]⟩
abbrev S256 : Shape := ⟨1, ![256]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  reducesTo_S_S_d : S_.ReducesTo [] S_

variable [Facts]

def fn_part1 {F : FTy → Type} [FloatOps F] (main_arg4 : FVec F S4096x4096 .f32) (main_arg5 : FVec F S_ .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S256x4096 .f32) (main_arg1 : FVec F S256x4096 .f32) (main_arg2 : FVec F S256x4096 .f32) (main_arg3 : FVec F S256x4096 .f32) (main_arg4 : FVec F S4096x4096 .f32) (main_arg5 : FVec F S_ .f32) (main_arg6 : IVec S256 32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_v13 main_v16
-- ==== Kernel.lean ====
abbrev S256x4096 : Shape := ⟨2, ![256, 4096]⟩
abbrev S4096x4096 : Shape := ⟨2, ![4096, 4096]⟩
abbrev S_ : Shape := ⟨0, ![]⟩
abbrev S256 : Shape := ⟨1, ![256]⟩
abbrev S256x1024 : Shape := ⟨2, ![256, 1024]⟩
abbrev S1024x1024 : Shape := ⟨2, ![1024, 1024]⟩
abbrev S256x1 : Shape := ⟨2, ![256, 1]⟩

abbrev nBuf : Space → Nat
  | .hbm => 67
  | .vmem => 19
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x4096, .f32⟩
  | .hbm, ⟨5, _⟩ => ⟨S_, .f32⟩
  | .hbm, ⟨6, _⟩ => ⟨S256, .i32⟩
  | .hbm, ⟨7, _⟩ => ⟨S256x4096, .f32⟩
  | .hbm, ⟨8, _⟩ => ⟨S256x4096, .f32⟩
  | .hbm, ⟨9, _⟩ => ⟨S_, .i32⟩
  | .hbm, ⟨10, _⟩ => ⟨S256, .i32⟩
  | .hbm, ⟨11, _⟩ => ⟨S256, .i1⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S256x1, .i32⟩
  | .hbm, ⟨17, _⟩ => ⟨S256x4096, .f32⟩
  | .hbm, ⟨18, _⟩ => ⟨S256x4096, .f32⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256x4096, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .i1⟩
  | .hbm, ⟨38, _⟩ => ⟨S_, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S256x4096, .f32⟩
  | .hbm, ⟨50, _⟩ => ⟨S256x4096, .f32⟩
  | .hbm, ⟨51, _⟩ => ⟨S256x4096, .f32⟩
  | .hbm, ⟨52, _⟩ => ⟨S_, .f32⟩
  | .hbm, ⟨53, _⟩ => ⟨S256, .f32⟩
  | .hbm, ⟨54, _⟩ => ⟨S256, .i1⟩
  | .hbm, ⟨55, _⟩ => ⟨S_, .f32⟩
  | .hbm, ⟨56, _⟩ => ⟨S_, .i1⟩
  | .hbm, ⟨57, _⟩ => ⟨S256, .i1⟩
  | .hbm, ⟨58, _⟩ => ⟨S256, .i1⟩
  | .hbm, ⟨59, _⟩ => ⟨S256, .f32⟩
  | .hbm, ⟨60, _⟩ => ⟨S256x1, .f32⟩
  | .hbm, ⟨61, _⟩ => ⟨S256x1, .f32⟩
  | .hbm, ⟨62, _⟩ => ⟨S256x4096, .f32⟩
  | .hbm, ⟨63, _⟩ => ⟨S256x4096, .f32⟩
  | .hbm, ⟨64, _⟩ => ⟨S256x4096, .f32⟩
  | .hbm, ⟨65, _⟩ => ⟨S256x4096, .f32⟩
  | .hbm, ⟨66, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_cst_8 : Ref sig .tc := ⟨.hbm, 44, rfl⟩
abbrev main_call1_v0 : Ref sig .tc := ⟨.hbm, 45, rfl⟩
abbrev main_call1_v1 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_10 : Ref sig .tc := ⟨.hbm, 52, rfl⟩
abbrev main_v28 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  natLt_1_32 : 1 < 32
  bcast_S_S256 : S_.BroadcastsInDim S256 (![] : Fin 0 → Fin S256.rank)
  bcast_S256_S256x1_0 : S256.BroadcastsInDim S256x1 (![0] : Fin 1 → Fin S256x1.rank)
  reducesTo_S256x4096_S256_d1 : S256x4096.ReducesTo [1] S256
  h_S_ : 0 < S_.numel
  bcast_S_S256x4096 : S_.BroadcastsInDim S256x4096 (![] : Fin 0 → Fin S256x4096.rank)
  bcast_S256x1_S256x4096_0_1 : S256x1.BroadcastsInDim S256x4096 (![0, 1] : Fin 2 → Fin S256x4096.rank)
  dot_S256x1024_S1024x1024_S256x1024_1_1_0_0_n_n_wf : DotDims.WF S256x1024 S1024x1024 S256x1024 [1] [1] [0] [0] [] []
  gather_S256x4096_S256x1_S256x4096_1_0_n_n_0_1_14096_wf : GatherDims.WF S256x4096 S256x1 S256x4096 [1] [0] [] [0] [] 1 ![1, 4096]
  dot_S256x1024_S256x1024_S1024x1024_0_0_1_1_n_n_wf : DotDims.WF S256x1024 S256x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x4096.size a
  hwx0_3 : ∀ i : grid0.Coords, EltTy.bits .f32 = 32 ∨ (Rect.block (s := S256x4096) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x4096.size a
  hwx0_4 : ∀ i : grid0.Coords, EltTy.bits .f32 = 32 ∨ (Rect.block (s := S256x4096) S256x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x4096.size a
  hwx1_0 : ∀ i : grid1.Coords, EltTy.bits .f32 = 32 ∨ (Rect.block (s := S256x4096) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x4096.size a
  hwx1_1 : ∀ i : grid1.Coords, EltTy.bits .f32 = 32 ∨ (Rect.block (s := S256x4096) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def gather_S256x4096_S256x1_S256x4096_1_0_n_n_0_1_14096 : GatherDims S256x4096 S256x1 S256x4096 where
  offsetDims := [1]
  collapsedSliceDims := [0]
  operandBatchingDims := []
  startIndicesBatchingDims := []
  startIndexMap := [0]
  indexVectorDim := 1
  sliceSizes := ![1, 4096]
  wf := gather_S256x4096_S256x1_S256x4096_1_0_n_n_0_1_14096_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v39) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x4096 : Shape := ⟨2, ![256, 4096]⟩
abbrev S4096x4096 : Shape := ⟨2, ![4096, 4096]⟩
abbrev S_ : Shape := ⟨0, ![]⟩
abbrev S256 : Shape := ⟨1, ![256]⟩
abbrev S256x1 : Shape := ⟨2, ![256, 1]⟩

abbrev nBuf : Space → Nat
  | .hbm => 95
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x4096, .f32⟩
  | .hbm, ⟨5, _⟩ => ⟨S_, .f32⟩
  | .hbm, ⟨6, _⟩ => ⟨S256, .i32⟩
  | .hbm, ⟨7, _⟩ => ⟨S_, .f32⟩
  | .hbm, ⟨8, _⟩ => ⟨S256x4096, .f32⟩
  | .hbm, ⟨9, _⟩ => ⟨S256x4096, .f32⟩
  | .hbm, ⟨10, _⟩ => ⟨S4096x4096, .f32⟩
  | .hbm, ⟨11, _⟩ => ⟨S256x4096, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .i1⟩
  | .hbm, ⟨16, _⟩ => ⟨S256x4096, .f32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S256x4096, .f32⟩
  | .hbm, ⟨26, _⟩ => ⟨S256x4096, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256x4096, .f32⟩
  | .hbm, ⟨33, _⟩ => ⟨S_, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .i1⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256x4096, .f32⟩
  | .hbm, ⟨58, _⟩ => ⟨S256x4096, .f32⟩
  | .hbm, ⟨59, _⟩ => ⟨S_, .f32⟩
  | .hbm, ⟨60, _⟩ => ⟨S256x4096, .f32⟩
  | .hbm, ⟨61, _⟩ => ⟨S256x4096, .f32⟩
  | .hbm, ⟨62, _⟩ => ⟨S256x4096, .f32⟩
  | .hbm, ⟨63, _⟩ => ⟨S_, .f32⟩
  | .hbm, ⟨64, _⟩ => ⟨S256x4096, .f32⟩
  | .hbm, ⟨65, _⟩ => ⟨S256x4096, .f32⟩
  | .hbm, ⟨66, _⟩ => ⟨S_, .f32⟩
  | .hbm, ⟨67, _⟩ => ⟨S256x4096, .f32⟩
  | .hbm, ⟨68, _⟩ => ⟨S256x4096, .f32⟩
  | .hbm, ⟨69, _⟩ => ⟨S_, .f32⟩
  | .hbm, ⟨70, _⟩ => ⟨S256x4096, .f32⟩
  | .hbm, ⟨71, _⟩ => ⟨S256x4096, .f32⟩
  | .hbm, ⟨72, _⟩ => ⟨S256x4096, .f32⟩
  | .hbm, ⟨73, _⟩ => ⟨S_, .f32⟩
  | .hbm, ⟨74, _⟩ => ⟨S256, .f32⟩
  | .hbm, ⟨75, _⟩ => ⟨S256, .i1⟩
  | .hbm, ⟨76, _⟩ => ⟨S_, .f32⟩
  | .hbm, ⟨77, _⟩ => ⟨S_, .i1⟩
  | .hbm, ⟨78, _⟩ => ⟨S256, .i1⟩
  | .hbm, ⟨79, _⟩ => ⟨S256, .i1⟩
  | .hbm, ⟨80, _⟩ => ⟨S256, .f32⟩
  | .hbm, ⟨81, _⟩ => ⟨S256x1, .f32⟩
  | .hbm, ⟨82, _⟩ => ⟨S256x1, .f32⟩
  | .hbm, ⟨83, _⟩ => ⟨S256x4096, .f32⟩
  | .hbm, ⟨84, _⟩ => ⟨S256x4096, .f32⟩
  | .hbm, ⟨85, _⟩ => ⟨S256x4096, .f32⟩
  | .hbm, ⟨86, _⟩ => ⟨S256x4096, .f32⟩
  | .hbm, ⟨87, _⟩ => ⟨S4096x4096, .f32⟩
  | .hbm, ⟨88, _⟩ => ⟨S_, .f32⟩
  | .hbm, ⟨89, _⟩ => ⟨S4096x4096, .f32⟩
  | .hbm, ⟨90, _⟩ => ⟨S4096x4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4096x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_16 : Ref sig .tc := ⟨.hbm, 73, rfl⟩
abbrev main_v44 : Ref sig .tc := ⟨.hbm, 74, rfl⟩
abbrev main_v45 : Ref sig .tc := ⟨.hbm, 75, rfl⟩
abbrev main_cst_17 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_18 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S256x4096 : S_.BroadcastsInDim S256x4096 (![] : Fin 0 → Fin S256x4096.rank)
  transposes_S4096x4096_S4096x4096_1_0 : S4096x4096.Transposes [1, 0] S4096x4096
  bcast_S_S256 : S_.BroadcastsInDim S256 (![] : Fin 0 → Fin S256.rank)
  bcast_S256_S256x1_0 : S256.BroadcastsInDim S256x1 (![0] : Fin 1 → Fin S256x1.rank)
  reducesTo_S256x4096_S256_d1 : S256x4096.ReducesTo [1] S256
  h_S_ : 0 < S_.numel
  bcast_S256x1_S256x4096_0_1 : S256x1.BroadcastsInDim S256x4096 (![0, 1] : Fin 2 → Fin S256x4096.rank)
  bcast_S_S4096x4096 : S_.BroadcastsInDim S4096x4096 (![] : Fin 0 → Fin S4096x4096.rank)
  dot_S256x4096_S4096x4096_S256x4096_1_0_0_1_n_n_wf : DotDims.WF S256x4096 S4096x4096 S256x4096 [1] [0] [0] [1] [] []
  gather_S256x4096_S256x1_S256x4096_1_0_n_n_0_1_14096_wf : GatherDims.WF S256x4096 S256x1 S256x4096 [1] [0] [] [0] [] 1 ![1, 4096]
  dot_S256x4096_S256x4096_S4096x4096_0_0_1_1_n_n_wf : DotDims.WF S256x4096 S256x4096 S4096x4096 [0] [0] [1] [1] [] []

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf
def gather_S256x4096_S256x1_S256x4096_1_0_n_n_0_1_14096 : GatherDims S256x4096 S256x1 S256x4096 where
  offsetDims := [1]
  collapsedSliceDims := [0]
  operandBatchingDims := []
  startIndicesBatchingDims := []
  startIndexMap := [0]
  indexVectorDim := 1
  sliceSizes := ![1, 4096]
  wf := gather_S256x4096_S256x1_S256x4096_1_0_n_n_0_1_14096_wf
def dot_S256x4096_S256x4096_S4096x4096_0_0_1_1_n_n : DotDims S256x4096 S256x4096 S4096x4096 where
  lhsContracting := [0]
  rhsContracting := [0]
  lhsNonContracting := [1]
  rhsNonContracting := [1]
  lhsBatch := []
  rhsBatch := []
  wf := dot_S256x4096_S256x4096_S4096x4096_0_0_1_1_n_n_wf

class Facts : Prop extends Facts₀ where

variable [Facts]
-- ==== Proof.K.R0Runs.lean ====
import proofs.«111062_j11708080849226_1_alg».proof.Proof.Gen.Kernel.Launch
import proofs.«111062_j11708080849226_1_alg».proof.Proof.Gen.Kernel.Skeleton
import proofs.«111062_j11708080849226_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' column block, indexed by the reduction coordinate): its current staging buffer holds the block of its array at every point,
    transferred there or kept from the point before (the block index has not moved), for any proof data whose
    array is the entry contents and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights' block, indexed by both coordinates): its current staging buffer holds the block of its array at every point,
    transferred there or kept from the point before (the block index has not moved), for any proof data whose
    array is the entry contents and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the membrane state's block, indexed by the output coordinate only: transferred when that coordinate moves, kept otherwise): its current staging buffer holds the block of its array at every point,
    transferred there or kept from the point before (the block index has not moved), for any proof data whose
    array is the entry contents and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditionals, decided over the 4 x 4 grid -/

/-- The first conditional resets the accumulator: reduction coordinate = 0. -/
abbrev cond0_0 (i : grid0.Coords) : Prop := (Scalar.cmpi .ne (Scalar.extui (Scalar.cmpi .eq (BitVec.ofNat 32 (i 1).val) 0#32)) 0#32) = 1#1
/-- Row-major over 4 x 4, the reduction coordinate of point `t` is `t % 4`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional finalizes (spikes and surrogate stored): reduction coordinate = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle, and where the outputs are written back -/

/-- Input window 0 is live at every point. -/
theorem liveAt0_0 : ∀ t : Fin cfg0.N, cfg0.idle 0 (grid0.coords t) = false := by decide +kernel
/-- Input window 1 is live at every point. -/
theorem liveAt0_1 : ∀ t : Fin cfg0.N, cfg0.idle 1 (grid0.coords t) = false := by decide +kernel
/-- Input window 2 is live at every point. -/
theorem liveAt0_2 : ∀ t : Fin cfg0.N, cfg0.idle 2 (grid0.coords t) = false := by decide +kernel
/-- At a point of case A output window 3 is idle: nothing is stored into it there. -/
theorem idleAt0_3_A : ∀ t : Fin cfg0.N, cond0_0 (grid0.coords t) → ¬cond0_1 (grid0.coords t) → cfg0.idle 3 (grid0.coords t) = true := by decide +kernel
/-- At a point of case A output window 3's block is not written back. -/
theorem noFlush0_3_A : ∀ t : Fin cfg0.N, cond0_0 (grid0.coords t) → ¬cond0_1 (grid0.coords t) → (cfg0.win 3).flush t = false := by decide +kernel
/-- At a point of case B output window 3 is idle: nothing is stored into it there. -/
theorem idleAt0_3_B : ∀ t : Fin cfg0.N, ¬cond0_0 (grid0.coords t) → ¬cond0_1 (grid0.coords t) → cfg0.idle 3 (grid0.coords t) = true := by decide +kernel
/-- At a point of case B output window 3's block is not written back. -/
theorem noFlush0_3_B : ∀ t : Fin cfg0.N, ¬cond0_0 (grid0.coords t) → ¬cond0_1 (grid0.coords t) → (cfg0.win 3).flush t = false := by decide +kernel
/-- At a point of case C (the last step of the reduction axis) output window 3 is live: the body stores its whole block. -/
theorem liveAt0_3_C : ∀ t : Fin cfg0.N, ¬cond0_0 (grid0.coords t) → cond0_1 (grid0.coords t) → cfg0.idle 3 (grid0.coords t) = false := by decide +kernel
/-- At a point of case A output window 4 is idle: nothing is stored into it there. -/
theorem idleAt0_4_A : ∀ t : Fin cfg0.N, cond0_0 (grid0.coords t) → ¬cond0_1 (grid0.coords t) → cfg0.idle 4 (grid0.coords t) = true := by decide +kernel
/-- At a point of case A output window 4's block is not written back. -/
theorem noFlush0_4_A : ∀ t : Fin cfg0.N, cond0_0 (grid0.coords t) → ¬cond0_1 (grid0.coords t) → (cfg0.win 4).flush t = false := by decide +kernel
/-- At a point of case B output window 4 is idle: nothing is stored into it there. -/
theorem idleAt0_4_B : ∀ t : Fin cfg0.N, ¬cond0_0 (grid0.coords t) → ¬cond0_1 (grid0.coords t) → cfg0.idle 4 (grid0.coords t) = true := by decide +kernel
/-- At a point of case B output window 4's block is not written back. -/
theorem noFlush0_4_B : ∀ t : Fin cfg0.N, ¬cond0_0 (grid0.coords t) → ¬cond0_1 (grid0.coords t) → (cfg0.win 4).flush t = false := by decide +kernel
/-- At a point of case C (the last step of the reduction axis) output window 4 is live: the body stores its whole block. -/
theorem liveAt0_4_C : ∀ t : Fin cfg0.N, ¬cond0_0 (grid0.coords t) → cond0_1 (grid0.coords t) → cfg0.idle 4 (grid0.coords t) = false := by decide +kernel

/-! ## The memrefs the body runs on -/

/-- One staging view of each output window, through which its contents are stated (any whole view of the shape reads
    covering pieces back the same). -/
abbrev VO0_3 : View sig .tc .vmem S256x1024 .f32 := (Memref.whole cc0_stg3_0 : Memref sig .tc .vmem S256x1024 .f32).view
abbrev VO0_4 : View sig .tc .vmem S256x1024 .f32 := (Memref.whole cc0_stg4_0 : Memref sig .tc .vmem S256x1024 .f32).view
/-- Each window's current staging memref at point `t`, with its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point along the reduction axis. -/
abbrev scM0_0 : Memref sig .tc .vmem S256x1024 .f32 := Memref.whole cc0_scratch0
abbrev VS0_0 : View sig .tc .vmem S256x1024 .f32 := scM0_0.view

/-- The core's other scoped buffers that are no staging buffer of this region (the second call's staging buffers),
    each whole at some contents: this region never touches them. -/
abbrev restO0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's invariant with the accumulator as a memref owned at some contents, beside the untouched rest and the
    generator register. -/
theorem PhiA0_eq (c : Dev nD) :
    (Pipeline.ΦA spec0 c : sProp 𝕄)
      = iprop(iprop((∃ d, owns (c : Thread nD τ) scM0_0 fullShare d) ∗ restO0 (F := F) c) ∗ (∃ r, prngReg c r)) := by
  unfold Pipeline.ΦA; rw [scopedRest0_eq]; simp only [scM0_0, owns_whole]; try rfl

end Cert.Kernel.Hand

end
-- ==== Proof.K.R0RunA.lean ====
import proofs.«111062_j11708080849226_1_alg».proof.Proof.Gen.Kernel.Launch
import proofs.«111062_j11708080849226_1_alg».proof.Proof.Gen.Kernel.Skeleton
import proofs.«111062_j11708080849226_1_alg».proof.Proof.Gen.Kernel.Points
import proofs.«111062_j11708080849226_1_alg».proof.Proof.K.R0Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE A (first step of the reduction axis: the reset is taken, the finalization is not). On whole staging memrefs
    — the three inputs at their blocks, the two outputs (idle here) at any contents `xi3`, `xi4`, the accumulator at
    anything — the body runs to a continuation holding the inputs and the outputs as they were and the accumulator
    with its pieces written: the zero fill, then the first partial product added to it. The pieces are the witness. -/
noncomputable def kernelRun0_A (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunB.lean ====
import proofs.«111062_j11708080849226_1_alg».proof.Proof.Gen.Kernel.Launch
import proofs.«111062_j11708080849226_1_alg».proof.Proof.Gen.Kernel.Skeleton
import proofs.«111062_j11708080849226_1_alg».proof.Proof.Gen.Kernel.Points
import proofs.«111062_j11708080849226_1_alg».proof.Proof.K.R0RunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE B (a middle step of the reduction axis: neither conditional is taken). On whole staging memrefs — the three
    inputs at their blocks, the two outputs (idle here) at any contents `xi3`, `xi4`, the accumulator at what the step
    before left (`xs0`) — the body runs to a continuation holding the inputs and the outputs as they were and the
    accumulator with its one piece written: this step's partial product added to `xs0`. -/
noncomputable def kernelRun0_B (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0RunC.lean ====
import proofs.«111062_j11708080849226_1_alg».proof.Proof.Gen.Kernel.Launch
import proofs.«111062_j11708080849226_1_alg».proof.Proof.Gen.Kernel.Skeleton
import proofs.«111062_j11708080849226_1_alg».proof.Proof.Gen.Kernel.Points
import proofs.«111062_j11708080849226_1_alg».proof.Proof.K.R0RunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE C (last step of the reduction axis: the reset is not taken, the finalization is). On whole staging memrefs —
    the three inputs at their blocks, the two outputs at anything, the accumulator at what the step before left
    (`xs0`) — the body runs to a continuation holding the inputs as they were, the accumulator with its one piece written
    (the last partial product added to `xs0`), and each output with its one piece written: from the leaky membrane
    potential (decay times the state block plus the finished sum), the spikes (output 3) and the surrogate (output 4). -/
noncomputable def kernelRun0_C (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) :
    Σ' (L3 : List (View.Piece (Elt F) S256x1024 .f32)) (L4 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨?_, ?_, ?_, fun E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.K.R0.lean ====
import proofs.«111062_j11708080849226_1_alg».proof.Proof.Gen.Kernel.Launch
import proofs.«111062_j11708080849226_1_alg».proof.Proof.Gen.Kernel.Skeleton
import proofs.«111062_j11708080849226_1_alg».proof.Proof.Gen.Kernel.Points
import proofs.«111062_j11708080849226_1_alg».proof.Proof.K.R0RunC
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves in the outputs and in the accumulator -/

/-- In case A (the reset step) nothing is stored into output 3 (idle there, not written back, not read at the next point): no
    pieces; a placeholder nothing consults. -/
def out0_A_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) : Vec F S256x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- In case A (the reset step) nothing is stored into output 4 (idle there, not written back, not read at the next point): no
    pieces; a placeholder nothing consults. -/
def out0_A_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) : Vec F S256x1024 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- In case A (the reset step) the accumulator's whole-block stores tile it, so its pieces cover it. -/
theorem scover0_A_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) (y : S256x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S256x1024.size (by sl_kernel_rfl) y

/-- What case A (the reset step) leaves in the accumulator: its pieces read back. -/
def sout0_A_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) : Vec F S256x1024 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- In case B (a middle step) nothing is stored into output 3 (idle there, not written back, not read at the next point): no
    pieces; a placeholder nothing consults. -/
def out0_B_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) : Vec F S256x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)

/-- In case B (a middle step) nothing is stored into output 4 (idle there, not written back, not read at the next point): no
    pieces; a placeholder nothing consults. -/
def out0_B_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) : Vec F S256x1024 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)

/-- In case B (a middle step) the accumulator's whole-block stores tile it, so its pieces cover it. -/
theorem scover0_B_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) (y : S256x1024.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S256x1024.size (by sl_kernel_rfl) y

/-- What case B (a middle step) leaves in the accumulator: its pieces read back. -/
def sout0_B_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) : Vec F S256x1024 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- In case C (the finalizing step) the one whole-block store into output 3 tiles its block, so its pieces cover it. -/
theorem cover0_C_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S256x1024.size (by sl_kernel_rfl) y

/-- What case C (the finalizing step) leaves in output 3's staging buffer: its pieces read back. -/
def out0_C_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) : Vec F S256x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)

/-- In case C (the finalizing step) the one whole-block store into output 4 tiles its block, so its pieces cover it. -/
theorem cover0_C_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S256x1024.size (by sl_kernel_rfl) y

/-- What case C (the finalizing step) leaves in output 4's staging buffer: its pieces read back. -/
def out0_C_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) : Vec F S256x1024 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)

/-- In case C (the finalizing step) the accumulator's whole-block stores tile it, so its pieces cover it. -/
theorem scover0_C_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S256x1024.size (by sl_kernel_rfl) y

/-- What case C (the finalizing step) leaves in the accumulator: its pieces read back. -/
def sout0_C_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) : Vec F S256x1024 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

section
-- the TensorCore's buffer contents when the region is entered
variable (V : (c : Dev nD) → (b : Ref sig .tc) → Buf (Elt F) ((c : Thread nD τ).loc b))

/-! ## The accumulation along the reduction axis -/

/-- What output 3's and output 4's staging buffers and the accumulator hold after the body at position `n`: the case
    of `n % 4` run at the point's memrefs and input blocks, the accumulator entering at what position `n - 1` left
    (cases B and C; case A overwrites it). No position is in both the first and the last step. -/
def outsAt0 (c : Dev nD) : (n : ℕ) → n < cfg0.N → Vec F S256x1024 .f32 × Vec F S256x1024 .f32 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at a first step. -/
theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle step, over what the step before left. -/
theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step, over what the step before left. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator is at anything; afterwards it
    is at what the point before left in it. The second call's staging buffers and the generator register ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restO0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restO0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restO0 (F := F) c) ∗ (∃ r, prngReg c r)) := by
  cases n with
  | zero => exact absurd rfl hz
  | succ n => rfl

/-! ## The region's proof data -/

/-- The arrays at the entry contents; after the body at point `t` each input's buffer at its block and the two outputs'
    at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; `t % 4` says which case the point is in; the case's
    run applies. The invariant hands the body the accumulator (at anything at the very first point, else at what the
    point before left) and takes it back at this point's contents, the pieces covering it; an idle output goes back
    untouched; at a last step each output is left at its covering pieces read back. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · -- first step of the reduction axis
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · -- last step of the reduction axis
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · -- a middle step of the reduction axis
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end

end Cert.Kernel.Hand

end
-- ==== Proof.K.R1.lean ====
import proofs.«111062_j11708080849226_1_alg».proof.Proof.Gen.Kernel.Launch
import proofs.«111062_j11708080849226_1_alg».proof.Proof.Gen.Kernel.Skeleton
import proofs.«111062_j11708080849226_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the weight update, one block per grid point

At point (n, l) of the 4 × 4 grid the body loads the coefficient block (all 256 rows, columns of block n), the
trace block (all 256 rows, columns of block l) and the weight block (rows of block n, columns of block l), and
stores into the output block one value computed from the three. Nothing is kept between points. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-- The whole [256, 1024] buffer and the whole [1024, 1024] buffer as rectangles. -/
abbrev rTall : Rect S256x1024 := Rect.unit (s := S256x1024) ![0, 0] S256x1024.size inb_S256x1024_S256x1024_0_0
abbrev rSq : Rect S1024x1024 := Rect.unit (s := S1024x1024) ![0, 0] S1024x1024.size inb_S1024x1024_S1024x1024_0_0

/-- What the body leaves in the output's staging buffer: its one store, of the update computed from the three loads. -/
def out1_3 (x0 : Vec F S256x1024 .f32) (x1 : Vec F S256x1024 .f32) (x2 : Vec F S1024x1024 .f32) : Vec F S1024x1024 .f32 :=
  View.canon [⟨rSq, k1_pay1 (View.ld x0 rTall) (View.ld x1 rTall) (View.ld x2 rSq)⟩]

/-- The one store covers the buffer. -/
theorem cover1_3 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg2 : Memref sig .tc .vmem S256x1024 .f32) (harg2 : arg2.IsWhole)
    (arg3 : Memref sig .tc .vmem S256x1024 .f32) (harg3 : arg3.IsWhole) (arg4 : Memref sig .tc .vmem S1024x1024 .f32) (harg4 : arg4.IsWhole)
    (arg5 : Memref sig .tc .vmem S1024x1024 .f32) (harg5 : arg5.IsWhole)
    (x0 : Vec F S256x1024 .f32) (x1 : Vec F S256x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__dw_kernel i arg2 harg2 arg3 harg3 arg4 harg4 arg5 harg5) K := by
  simp only [cc1__dw_kernel_eq_skeleton]; unfold cc1__dw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

section
variable (V : (c : Dev nD) → (b : Ref sig .tc) → Buf (Elt F) ((c : Thread nD τ).loc b))

/-- The proof data of region 1 on core `c`: the arrays as the region finds them; after the body at point `t` each
    input's buffer at its block and the output's at `out1_3` of the three blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
import proofs.«111062_j11708080849226_1_alg».proof.Proof.Gen.Kernel.Launch
import proofs.«111062_j11708080849226_1_alg».proof.Proof.Gen.Kernel.Skeleton
import proofs.«111062_j11708080849226_1_alg».proof.Proof.Gen.Kernel.Points
import proofs.«111062_j11708080849226_1_alg».proof.Proof.Gen.Kernel.Regions
import proofs.«111062_j11708080849226_1_alg».proof.Proof.K.R0
import proofs.«111062_j11708080849226_1_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program

The program is: the accumulating pass (a 4 × 4 grid whose second coordinate is a reduction, a running accumulator
kept in a scratch buffer from one point to the next), five stretches of array arithmetic over its two results and the
arguments, and the weight update (a 4 × 4 grid that keeps nothing between points). Here the two passes, each proved at an
arbitrary entry valuation, are instantiated at the valuations the program actually reaches, and chained with the
arithmetic between them into ONE statement: every weakly fair execution terminates, and at the end every unscoped
buffer of every core holds a value named below. The frame (the seven arguments end as launched) and the value of the
result array are read off that statement.

## The buffers' contents at each boundary -/

/-- Core `c`'s buffers at launch: what the accumulating pass is entered from. -/
abbrev Wl : Dev nD → Valuation τ sig (Elt F) := fun c b => (s₀ m ρ).mem ((c : Dev nD), b)
/-- The launch contents read at the core's own references. -/
abbrev VA : (c : Dev nD) → (b : Ref sig .tc) → Buf (Elt F) ((c : Thread nD τ).loc b) := fun c b => Wl m ρ c b
/-- After the accumulating pass: each of its five arrays at what its sixteen points leave there (an input untouched, an
    output with its write-backs folded in), every other buffer as launched. -/
def Wr0 (c : Dev nD) : Valuation τ sig (Elt F) :=
  Pipeline.withArrays spec0 c (Wl m ρ c) fun w => (dat0 (VA m ρ) c).arrAt w cfg0.N
theorem Wr0_arr (c : Dev nD) (w : Fin cfg0.W) :
    Wr0 m ρ c (Proc.devRef .tc (Pipeline.arrRef spec0 w)) = (dat0 (VA m ρ) c).arrAt w cfg0.N := by
  unfold Wr0; exact Pipeline.withArrays_arr spec0 launch0.win.arr_inj c _ _ w
theorem Wr0_of_ne (c : Dev nD) (b : Ref sig .tc) (hb : ∀ w, Pipeline.arrRef spec0 w ≠ b) :
    Wr0 m ρ c (Proc.devRef .tc b) = Wl m ρ c (Proc.devRef .tc b) := by
  unfold Wr0; exact Pipeline.withArrays_of_ne spec0 c _ _ b hb
/-- The two facts that put the accumulating pass's arrays back among the unscoped buffers at `Wr0`: each array holds
    what the pass leaves, every other buffer what it held at entry. -/
theorem Wr0_hF (c : Dev nD) (w : Fin cfg0.W) :
    (dat0 (VA m ρ) c).arrAt w cfg0.N = (fun b : Ref sig .tc => Wr0 m ρ c b) (Pipeline.arrRef spec0 w) :=
  (Wr0_arr m ρ c w).symm
theorem Wr0_hrest (c : Dev nD) :
    ∀ b, b ∉ Finset.univ.image (Pipeline.arrRef spec0) → (fun b : Ref sig .tc => Wr0 m ρ c b) b = VA m ρ c b :=
  fun b hb => Wr0_of_ne m ρ c b fun w e => hb (Finset.mem_image.mpr ⟨w, Finset.mem_univ _, e⟩)

/-- After the first stretch of arithmetic (thirty operations: a row gather, two row means, their combination with the scaled rate, its sign test). -/
abbrev Wh1 : Dev nD → Valuation τ sig (Elt F) := fun c => StableHlo.after hostOps1 (Wr0 m ρ c)
/-- After the first selection (the combination where positive, zero elsewhere). -/
abbrev Wh2 : Dev nD → Valuation τ sig (Elt F) := fun c => StableHlo.after hostOps1_1 (Wh1 m ρ c)
/-- After the comparison of the rate with its constant floor. -/
abbrev Wh3 : Dev nD → Valuation τ sig (Elt F) := fun c => StableHlo.after hostOps1_2 (Wh2 m ρ c)
/-- After the second selection (kept where the rate exceeds its floor, zero elsewhere). -/
abbrev Wh4 : Dev nD → Valuation τ sig (Elt F) := fun c => StableHlo.after hostOps1_3 (Wh3 m ρ c)
/-- After the last stretch (eighteen operations, ending in the weight update's two computed operands): what the weight
    update is entered from. -/
abbrev Wh5 : Dev nD → Valuation τ sig (Elt F) := fun c => StableHlo.after hostOps1_4 (Wh4 m ρ c)
/-- The weight update's entry contents read at the core's own references. -/
abbrev VB : (c : Dev nD) → (b : Ref sig .tc) → Buf (Elt F) ((c : Thread nD τ).loc b) := fun c b => Wh5 m ρ c b
/-- After the weight update: each of its four arrays at what its sixteen points leave there, every other buffer as
    it was entered. This is the valuation the program ends at. -/
def Wr1 (c : Dev nD) : Valuation τ sig (Elt F) :=
  Pipeline.withArrays spec1 c (Wh5 m ρ c) fun w => (dat1 (VB m ρ) c).arrAt w cfg1.N
theorem Wr1_arr (c : Dev nD) (w : Fin cfg1.W) :
    Wr1 m ρ c (Proc.devRef .tc (Pipeline.arrRef spec1 w)) = (dat1 (VB m ρ) c).arrAt w cfg1.N := by
  unfold Wr1; exact Pipeline.withArrays_arr spec1 launch1.win.arr_inj c _ _ w
theorem Wr1_of_ne (c : Dev nD) (b : Ref sig .tc) (hb : ∀ w, Pipeline.arrRef spec1 w ≠ b) :
    Wr1 m ρ c (Proc.devRef .tc b) = Wh5 m ρ c (Proc.devRef .tc b) := by
  unfold Wr1; exact Pipeline.withArrays_of_ne spec1 c _ _ b hb
theorem Wr1_hF (c : Dev nD) (w : Fin cfg1.W) :
    (dat1 (VB m ρ) c).arrAt w cfg1.N = (fun b : Ref sig .tc => Wr1 m ρ c b) (Pipeline.arrRef spec1 w) :=
  (Wr1_arr m ρ c w).symm
theorem Wr1_hrest (c : Dev nD) :
    ∀ b, b ∉ Finset.univ.image (Pipeline.arrRef spec1) → (fun b : Ref sig .tc => Wr1 m ρ c b) b = VB m ρ c b :=
  fun b hb => Wr1_of_ne m ρ c b fun w e => hb (Finset.mem_image.mpr ⟨w, Finset.mem_univ _, e⟩)

/-! ## The arguments end as launched

Walking the final valuation back to the launch at an argument's buffer: a pass either reads the argument through an
input window (whose array it leaves as found) or does not touch it; no stretch of arithmetic writes an argument. -/

/-- `main_arg0` ends as launched: the accumulating pass reads it through input window 0, the weight update bypasses it, and no host stretch writes it. -/
theorem Wr1_main_arg0 (c : Dev nD) : Wr1 m ρ c (Proc.devRef .tc main_arg0) = m ((c : Thread nD τ).loc main_arg0) :=
  calc Wr1 m ρ c (Proc.devRef .tc main_arg0)
    _ = Wh5 m ρ c (Proc.devRef .tc main_arg0) := Wr1_of_ne m ρ c main_arg0 (by decide)
    _ = Wh4 m ρ c (Proc.devRef .tc main_arg0) := StableHlo.after_of_writes_sub hostOps1_4 _ hostOps1_4_writes (by decide)
    _ = Wh3 m ρ c (Proc.devRef .tc main_arg0) := StableHlo.after_of_writes_sub hostOps1_3 _ hostOps1_3_writes (by decide)
    _ = Wh2 m ρ c (Proc.devRef .tc main_arg0) := StableHlo.after_of_writes_sub hostOps1_2 _ hostOps1_2_writes (by decide)
    _ = Wh1 m ρ c (Proc.devRef .tc main_arg0) := StableHlo.after_of_writes_sub hostOps1_1 _ hostOps1_1_writes (by decide)
    _ = Wr0 m ρ c (Proc.devRef .tc main_arg0) := StableHlo.after_of_writes_sub hostOps1 _ hostOps1_writes (by decide)
    _ = Wl m ρ c (Proc.devRef .tc main_arg0) := (Wr0_arr m ρ c 0).trans (((dat0 (VA m ρ) c).arrAt_in 0 rfl _).trans (A_eq0 (VA m ρ) c 0))
    _ = m ((c : Thread nD τ).loc main_arg0) := rfl

/-- `main_arg1` ends as launched: the accumulating pass bypasses it, the weight update bypasses it, and no host stretch writes it. -/
theorem Wr1_main_arg1 (c : Dev nD) : Wr1 m ρ c (Proc.devRef .tc main_arg1) = m ((c : Thread nD τ).loc main_arg1) :=
  calc Wr1 m ρ c (Proc.devRef .tc main_arg1)
    _ = Wh5 m ρ c (Proc.devRef .tc main_arg1) := Wr1_of_ne m ρ c main_arg1 (by decide)
    _ = Wh4 m ρ c (Proc.devRef .tc main_arg1) := StableHlo.after_of_writes_sub hostOps1_4 _ hostOps1_4_writes (by decide)
    _ = Wh3 m ρ c (Proc.devRef .tc main_arg1) := StableHlo.after_of_writes_sub hostOps1_3 _ hostOps1_3_writes (by decide)
    _ = Wh2 m ρ c (Proc.devRef .tc main_arg1) := StableHlo.after_of_writes_sub hostOps1_2 _ hostOps1_2_writes (by decide)
    _ = Wh1 m ρ c (Proc.devRef .tc main_arg1) := StableHlo.after_of_writes_sub hostOps1_1 _ hostOps1_1_writes (by decide)
    _ = Wr0 m ρ c (Proc.devRef .tc main_arg1) := StableHlo.after_of_writes_sub hostOps1 _ hostOps1_writes (by decide)
    _ = Wl m ρ c (Proc.devRef .tc main_arg1) := Wr0_of_ne m ρ c main_arg1 (by decide)
    _ = m ((c : Thread nD τ).loc main_arg1) := rfl

/-- `main_arg2` ends as launched: the accumulating pass bypasses it, the weight update bypasses it, and no host stretch writes it. -/
theorem Wr1_main_arg2 (c : Dev nD) : Wr1 m ρ c (Proc.devRef .tc main_arg2) = m ((c : Thread nD τ).loc main_arg2) :=
  calc Wr1 m ρ c (Proc.devRef .tc main_arg2)
    _ = Wh5 m ρ c (Proc.devRef .tc main_arg2) := Wr1_of_ne m ρ c main_arg2 (by decide)
    _ = Wh4 m ρ c (Proc.devRef .tc main_arg2) := StableHlo.after_of_writes_sub hostOps1_4 _ hostOps1_4_writes (by decide)
    _ = Wh3 m ρ c (Proc.devRef .tc main_arg2) := StableHlo.after_of_writes_sub hostOps1_3 _ hostOps1_3_writes (by decide)
    _ = Wh2 m ρ c (Proc.devRef .tc main_arg2) := StableHlo.after_of_writes_sub hostOps1_2 _ hostOps1_2_writes (by decide)
    _ = Wh1 m ρ c (Proc.devRef .tc main_arg2) := StableHlo.after_of_writes_sub hostOps1_1 _ hostOps1_1_writes (by decide)
    _ = Wr0 m ρ c (Proc.devRef .tc main_arg2) := StableHlo.after_of_writes_sub hostOps1 _ hostOps1_writes (by decide)
    _ = Wl m ρ c (Proc.devRef .tc main_arg2) := Wr0_of_ne m ρ c main_arg2 (by decide)
    _ = m ((c : Thread nD τ).loc main_arg2) := rfl

/-- `main_arg3` ends as launched: the accumulating pass reads it through input window 2, the weight update bypasses it, and no host stretch writes it. -/
theorem Wr1_main_arg3 (c : Dev nD) : Wr1 m ρ c (Proc.devRef .tc main_arg3) = m ((c : Thread nD τ).loc main_arg3) :=
  calc Wr1 m ρ c (Proc.devRef .tc main_arg3)
    _ = Wh5 m ρ c (Proc.devRef .tc main_arg3) := Wr1_of_ne m ρ c main_arg3 (by decide)
    _ = Wh4 m ρ c (Proc.devRef .tc main_arg3) := StableHlo.after_of_writes_sub hostOps1_4 _ hostOps1_4_writes (by decide)
    _ = Wh3 m ρ c (Proc.devRef .tc main_arg3) := StableHlo.after_of_writes_sub hostOps1_3 _ hostOps1_3_writes (by decide)
    _ = Wh2 m ρ c (Proc.devRef .tc main_arg3) := StableHlo.after_of_writes_sub hostOps1_2 _ hostOps1_2_writes (by decide)
    _ = Wh1 m ρ c (Proc.devRef .tc main_arg3) := StableHlo.after_of_writes_sub hostOps1_1 _ hostOps1_1_writes (by decide)
    _ = Wr0 m ρ c (Proc.devRef .tc main_arg3) := StableHlo.after_of_writes_sub hostOps1 _ hostOps1_writes (by decide)
    _ = Wl m ρ c (Proc.devRef .tc main_arg3) := (Wr0_arr m ρ c 2).trans (((dat0 (VA m ρ) c).arrAt_in 2 rfl _).trans (A_eq0 (VA m ρ) c 2))
    _ = m ((c : Thread nD τ).loc main_arg3) := rfl

/-- `main_arg4` ends as launched: the accumulating pass reads it through input window 1, the weight update reads it through input window 2, and no host stretch writes it. -/
theorem Wr1_main_arg4 (c : Dev nD) : Wr1 m ρ c (Proc.devRef .tc main_arg4) = m ((c : Thread nD τ).loc main_arg4) :=
  calc Wr1 m ρ c (Proc.devRef .tc main_arg4)
    _ = Wh5 m ρ c (Proc.devRef .tc main_arg4) := (Wr1_arr m ρ c 2).trans (((dat1 (VB m ρ) c).arrAt_in 2 rfl _).trans (A_eq1 (VB m ρ) c 2))
    _ = Wh4 m ρ c (Proc.devRef .tc main_arg4) := StableHlo.after_of_writes_sub hostOps1_4 _ hostOps1_4_writes (by decide)
    _ = Wh3 m ρ c (Proc.devRef .tc main_arg4) := StableHlo.after_of_writes_sub hostOps1_3 _ hostOps1_3_writes (by decide)
    _ = Wh2 m ρ c (Proc.devRef .tc main_arg4) := StableHlo.after_of_writes_sub hostOps1_2 _ hostOps1_2_writes (by decide)
    _ = Wh1 m ρ c (Proc.devRef .tc main_arg4) := StableHlo.after_of_writes_sub hostOps1_1 _ hostOps1_1_writes (by decide)
    _ = Wr0 m ρ c (Proc.devRef .tc main_arg4) := StableHlo.after_of_writes_sub hostOps1 _ hostOps1_writes (by decide)
    _ = Wl m ρ c (Proc.devRef .tc main_arg4) := (Wr0_arr m ρ c 1).trans (((dat0 (VA m ρ) c).arrAt_in 1 rfl _).trans (A_eq0 (VA m ρ) c 1))
    _ = m ((c : Thread nD τ).loc main_arg4) := rfl

/-- `main_arg5` ends as launched: the accumulating pass bypasses it, the weight update bypasses it, and no host stretch writes it. -/
theorem Wr1_main_arg5 (c : Dev nD) : Wr1 m ρ c (Proc.devRef .tc main_arg5) = m ((c : Thread nD τ).loc main_arg5) :=
  calc Wr1 m ρ c (Proc.devRef .tc main_arg5)
    _ = Wh5 m ρ c (Proc.devRef .tc main_arg5) := Wr1_of_ne m ρ c main_arg5 (by decide)
    _ = Wh4 m ρ c (Proc.devRef .tc main_arg5) := StableHlo.after_of_writes_sub hostOps1_4 _ hostOps1_4_writes (by decide)
    _ = Wh3 m ρ c (Proc.devRef .tc main_arg5) := StableHlo.after_of_writes_sub hostOps1_3 _ hostOps1_3_writes (by decide)
    _ = Wh2 m ρ c (Proc.devRef .tc main_arg5) := StableHlo.after_of_writes_sub hostOps1_2 _ hostOps1_2_writes (by decide)
    _ = Wh1 m ρ c (Proc.devRef .tc main_arg5) := StableHlo.after_of_writes_sub hostOps1_1 _ hostOps1_1_writes (by decide)
    _ = Wr0 m ρ c (Proc.devRef .tc main_arg5) := StableHlo.after_of_writes_sub hostOps1 _ hostOps1_writes (by decide)
    _ = Wl m ρ c (Proc.devRef .tc main_arg5) := Wr0_of_ne m ρ c main_arg5 (by decide)
    _ = m ((c : Thread nD τ).loc main_arg5) := rfl

/-- `main_arg6` ends as launched: the accumulating pass bypasses it, the weight update bypasses it, and no host stretch writes it. -/
theorem Wr1_main_arg6 (c : Dev nD) : Wr1 m ρ c (Proc.devRef .tc main_arg6) = m ((c : Thread nD τ).loc main_arg6) :=
  calc Wr1 m ρ c (Proc.devRef .tc main_arg6)
    _ = Wh5 m ρ c (Proc.devRef .tc main_arg6) := Wr1_of_ne m ρ c main_arg6 (by decide)
    _ = Wh4 m ρ c (Proc.devRef .tc main_arg6) := StableHlo.after_of_writes_sub hostOps1_4 _ hostOps1_4_writes (by decide)
    _ = Wh3 m ρ c (Proc.devRef .tc main_arg6) := StableHlo.after_of_writes_sub hostOps1_3 _ hostOps1_3_writes (by decide)
    _ = Wh2 m ρ c (Proc.devRef .tc main_arg6) := StableHlo.after_of_writes_sub hostOps1_2 _ hostOps1_2_writes (by decide)
    _ = Wh1 m ρ c (Proc.devRef .tc main_arg6) := StableHlo.after_of_writes_sub hostOps1_1 _ hostOps1_1_writes (by decide)
    _ = Wr0 m ρ c (Proc.devRef .tc main_arg6) := StableHlo.after_of_writes_sub hostOps1 _ hostOps1_writes (by decide)
    _ = Wl m ρ c (Proc.devRef .tc main_arg6) := Wr0_of_ne m ρ c main_arg6 (by decide)
    _ = m ((c : Thread nD τ).loc main_arg6) := rfl

/-- The result array ends at what the weight update's output window leaves. -/
theorem Wr1_out (c : Dev nD) : Wr1 m ρ c (Proc.devRef .tc main_v40) = (dat1 (VB m ρ) c).arrAt 3 cfg1.N :=
  Wr1_arr m ρ c 3

/-! ## The proof data of the two passes and the thread state between segments -/

/-- Neither pass has a prefetched table. -/
abbrev adm' : (p : Fin 2) → (pcfgs (F := F) p).Adm := fun p => (cfgs p).toPCfg_adm
/-- Each pass's proof data at the valuation the program enters it from. -/
def pdats : (p : Fin 2) → (c : Dev nD) → Dat τ (Elt F) Unit ℕ (UR sig nD τ) ℕ (Pipeline.pin (pcfgs (F := F)) adm' p) c
  | ⟨0, _⟩ => fun c => dat0 (VA m ρ) c
  | ⟨1, _⟩ => fun c => dat1 (VB m ρ) c
abbrev 𝒱₀ : Variants := Variants.none
/-- No core ever owes another a signal: no level is assigned. -/
abbrev L : GSem nD τ sig → Finset Unit := fun _ => ∅
abbrev lv : GSem nD τ sig → Unit → ℕ := fun _ _ => 0
/-- What a core carries beside its buffers through every segment: its generator register at some state, and the record
    that it owes nothing. -/
abbrev rider (c : Dev nD) : sProp 𝕄 := iprop((∃ r, prngReg c r) ∗ ∃ W, owes (c : Thread nD τ) (0 : CellTallies nD τ sig Unit) W)
/-- A stretch of arithmetic as a segment: from every unscoped buffer at `W` to every unscoped buffer at `W` advanced by
    the stretch, the rider untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the record of owing nothing: every unscoped buffer at `Wr1`, the generator
    register at some state. -/
abbrev Tₙ (c : Dev nD) : sProp 𝕄 := iprop(StableHlo.held (c : Thread nD τ) (Pipeline.ucRefs τ sig) (Wr1 m ρ c) ∗ ∃ r, prngReg c r)

/-! ## The two passes as segments -/

set_option backward.isDefEq.respectTransparency.types false in
/-- THE ACCUMULATING PASS as a segment: entered from every unscoped buffer at the launch contents, left at `Wr0`. Its five
    arrays are split out of the unscoped buffers and put back at their final contents. Its invariant is not the same
    at every point (the scratch buffer's contents move), so the generator register and the scoped buffers enter it at
    the first point and leave it at the last through the pass's own two entailments. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (Wl m ρ c) ∗ rider c)
  post c := iprop(StableHlo.held (c : Thread nD τ) (Pipeline.ucRefs τ sig) (Wr0 m ρ c) ∗ rider c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (VA m ρ c) fun w => A_eq0 (VA m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (?_ : _ ⊢ (Pipeline.ΦA spec0 c : sProp 𝕄)) (hin0 (VA m ρ) c)
    unfold Pipeline.ΦA
    iintro ⟨Hp, -, Hr⟩
    isplitl [Hr]; · iexact Hr
    iexact Hp
  hout c := by
    rw [Pipeline.ownSems0_none]
    refine BI.Entails.trans (hout0 (VA m ρ) c) (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (VA m ρ c) (fun b => Wr0 m ρ c b) ((pdats m ρ 0 c).arrAt · cfg0.N) (Wr0_hF m ρ c) (Wr0_hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE WEIGHT UPDATE as a segment: entered from every unscoped buffer at `Wh5`, left at `Wr1` (the end). Its invariant
    is the same at every point: the scoped buffers no window stages, and the generator register. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (Wh5 m ρ c) ∗ rider c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (VB m ρ c) fun w => A_eq1 (VB m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (VB m ρ c) (fun b => Wr1 m ρ c b) ((pdats m ρ 1 c).arrAt · cfg1.N) (Wr1_hF m ρ c) (Wr1_hrest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as seven segments, and the launch -/

/-- The program's seven segments in order. -/
abbrev mainSegs : List (Pipeline.Seg (pcfgs (F := F)) adm' (pdats m ρ) () defs₀ 𝒱₀ L lv) :=
  [ .region (reg0 m ρ),
    .host (hseg hostOps1 hostOps1_sub hostOps1_fresh (Wr0 m ρ)),
    .host (hseg hostOps1_1 hostOps1_1_sub hostOps1_1_fresh (Wh1 m ρ)),
    .host (hseg hostOps1_2 hostOps1_2_sub hostOps1_2_fresh (Wh2 m ρ)),
    .host (hseg hostOps1_3 hostOps1_3_sub hostOps1_3_fresh (Wh3 m ρ)),
    .host (hseg hostOps1_4 hostOps1_4_sub hostOps1_4_fresh (Wh4 m ρ)),
    .region (reg1 m ρ) ]
/-- The program IS the run of those segments. -/
theorem main_run (c : Dev nD) : main (F := F) c = Pipeline.Seg.run (mainSegs m ρ) := (main_chain c).trans (by chain_rfl)

set_option backward.isDefEq.respectTransparency.types false in
/-- THE RUN. From any memory with zero counters, every weakly fair execution of the program on the cores terminates,
    nothing faulting, and in every final state every unscoped buffer of every core holds its value under `Wr1`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wr1 m ρ c b) :=
  Pipeline.θ_run_regions_kit (pcfgs (F := F)) adm' (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ rider c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wr1 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wr1 m ρ c) s')
      isplitl [Hh] <;> iassumption)
    (hQ := fun s h c => h c)

/-- THE FRAME: the program runs, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Wr1_main_arg0 m ρ c),
     (h c _ (mem_uc main_arg1 (by decide))).trans (Wr1_main_arg1 m ρ c),
     (h c _ (mem_uc main_arg2 (by decide))).trans (Wr1_main_arg2 m ρ c),
     (h c _ (mem_uc main_arg3 (by decide))).trans (Wr1_main_arg3 m ρ c),
     (h c _ (mem_uc main_arg4 (by decide))).trans (Wr1_main_arg4 m ρ c),
     (h c _ (mem_uc main_arg5 (by decide))).trans (Wr1_main_arg5 m ρ c),
     (h c _ (mem_uc main_arg6 (by decide))).trans (Wr1_main_arg6 m ρ c)⟩) (run_all m ρ)

/-- THE VALUE RUN: the program runs, the result array ends at what the weight update's output window leaves from the
    entry valuation `Wh5`, and the seven argument arrays end as launched. -/
theorem run_value : θ_run defs (onTc (τ := τ) (main (F := F))) ⟨m, fun _ => 0, ρ⟩ (fun r => ∀ c : Dev nD,
      r.2.mem ((c.tc : Thread nD τ).loc main_v40) = (dat1 (VB m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v40 (by decide))).trans (Wr1_out m ρ c),
     (h c _ (mem_uc main_arg0 (by decide))).trans (Wr1_main_arg0 m ρ c),
     (h c _ (mem_uc main_arg1 (by decide))).trans (Wr1_main_arg1 m ρ c),
     (h c _ (mem_uc main_arg2 (by decide))).trans (Wr1_main_arg2 m ρ c),
     (h c _ (mem_uc main_arg3 (by decide))).trans (Wr1_main_arg3 m ρ c),
     (h c _ (mem_uc main_arg4 (by decide))).trans (Wr1_main_arg4 m ρ c),
     (h c _ (mem_uc main_arg5 (by decide))).trans (Wr1_main_arg5 m ρ c),
     (h c _ (mem_uc main_arg6 (by decide))).trans (Wr1_main_arg6 m ρ c)⟩) (run_all m ρ)

end Cert.Kernel.Hand

end
-- ==== Proof.KI.R0Runs.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' column block, indexed by the reduction coordinate): its current staging buffer holds the block of its array at every point,
    transferred there or kept from the point before (the block index has not moved), for any proof data whose
    array is the entry contents and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights' block, indexed by both coordinates): its current staging buffer holds the block of its array at every point,
    transferred there or kept from the point before (the block index has not moved), for any proof data whose
    array is the entry contents and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the membrane state's block, indexed by the output coordinate only: transferred when that coordinate moves, kept otherwise): its current staging buffer holds the block of its array at every point,
    transferred there or kept from the point before (the block index has not moved), for any proof data whose
    array is the entry contents and whose body leaves the block in place. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditionals, decided over the 4 x 4 grid -/

/-- The first conditional resets the accumulator: reduction coordinate = 0. -/
abbrev cond0_0 (i : grid0.Coords) : Prop := (Scalar.cmpi .ne (Scalar.extui (Scalar.cmpi .eq (BitVec.ofNat 32 (i 1).val) 0#32)) 0#32) = 1#1
/-- Row-major over 4 x 4, the reduction coordinate of point `t` is `t % 4`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional finalizes (spikes and surrogate stored): reduction coordinate = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle, and where the outputs are written back -/

/-- Input window 0 is live at every point. -/
theorem liveAt0_0 : ∀ t : Fin cfg0.N, cfg0.idle 0 (grid0.coords t) = false := by decide +kernel
/-- Input window 1 is live at every point. -/
theorem liveAt0_1 : ∀ t : Fin cfg0.N, cfg0.idle 1 (grid0.coords t) = false := by decide +kernel
/-- Input window 2 is live at every point. -/
theorem liveAt0_2 : ∀ t : Fin cfg0.N, cfg0.idle 2 (grid0.coords t) = false := by decide +kernel
/-- At a point of case A output window 3 is idle: nothing is stored into it there. -/
theorem idleAt0_3_A : ∀ t : Fin cfg0.N, cond0_0 (grid0.coords t) → ¬cond0_1 (grid0.coords t) → cfg0.idle 3 (grid0.coords t) = true := by decide +kernel
/-- At a point of case A output window 3's block is not written back. -/
theorem noFlush0_3_A : ∀ t : Fin cfg0.N, cond0_0 (grid0.coords t) → ¬cond0_1 (grid0.coords t) → (cfg0.win 3).flush t = false := by decide +kernel
/-- At a point of case B output window 3 is idle: nothing is stored into it there. -/
theorem idleAt0_3_B : ∀ t : Fin cfg0.N, ¬cond0_0 (grid0.coords t) → ¬cond0_1 (grid0.coords t) → cfg0.idle 3 (grid0.coords t) = true := by decide +kernel
/-- At a point of case B output window 3's block is not written back. -/
theorem noFlush0_3_B : ∀ t : Fin cfg0.N, ¬cond0_0 (grid0.coords t) → ¬cond0_1 (grid0.coords t) → (cfg0.win 3).flush t = false := by decide +kernel
/-- At a point of case C (the last step of the reduction axis) output window 3 is live: the body stores its whole block. -/
theorem liveAt0_3_C : ∀ t : Fin cfg0.N, ¬cond0_0 (grid0.coords t) → cond0_1 (grid0.coords t) → cfg0.idle 3 (grid0.coords t) = false := by decide +kernel
/-- At a point of case A output window 4 is idle: nothing is stored into it there. -/
theorem idleAt0_4_A : ∀ t : Fin cfg0.N, cond0_0 (grid0.coords t) → ¬cond0_1 (grid0.coords t) → cfg0.idle 4 (grid0.coords t) = true := by decide +kernel
/-- At a point of case A output window 4's block is not written back. -/
theorem noFlush0_4_A : ∀ t : Fin cfg0.N, cond0_0 (grid0.coords t) → ¬cond0_1 (grid0.coords t) → (cfg0.win 4).flush t = false := by decide +kernel
/-- At a point of case B output window 4 is idle: nothing is stored into it there. -/
theorem idleAt0_4_B : ∀ t : Fin cfg0.N, ¬cond0_0 (grid0.coords t) → ¬cond0_1 (grid0.coords t) → cfg0.idle 4 (grid0.coords t) = true := by decide +kernel
/-- At a point of case B output window 4's block is not written back. -/
theorem noFlush0_4_B : ∀ t : Fin cfg0.N, ¬cond0_0 (grid0.coords t) → ¬cond0_1 (grid0.coords t) → (cfg0.win 4).flush t = false := by decide +kernel
/-- At a point of case C (the last step of the reduction axis) output window 4 is live: the body stores its whole block. -/
theorem liveAt0_4_C : ∀ t : Fin cfg0.N, ¬cond0_0 (grid0.coords t) → cond0_1 (grid0.coords t) → cfg0.idle 4 (grid0.coords t) = false := by decide +kernel

/-! ## The memrefs the body runs on -/

/-- One staging view of each output window, through which its contents are stated (any whole view of the shape reads
    covering pieces back the same). -/
abbrev VO0_3 : View sig .tc .vmem S256x1024 .f32 := (Memref.whole cc0_stg3_0 : Memref sig .tc .vmem S256x1024 .f32).view
abbrev VO0_4 : View sig .tc .vmem S256x1024 .f32 := (Memref.whole cc0_stg4_0 : Memref sig .tc .vmem S256x1024 .f32).view
/-- Each window's current staging memref at point `t`, with its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point along the reduction axis. -/
abbrev scM0_0 : Memref sig .tc .vmem S256x1024 .f32 := Memref.whole cc0_scratch0
abbrev VS0_0 : View sig .tc .vmem S256x1024 .f32 := scM0_0.view

/-- The core's other scoped buffers that are no staging buffer of this region (the second call's staging buffers),
    each whole at some contents: this region never touches them. -/
abbrev restO0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's invariant with the accumulator as a memref owned at some contents, beside the untouched rest and the
    generator register. -/
theorem PhiA0_eq (c : Dev nD) :
    (Pipeline.ΦA spec0 c : sProp 𝕄)
      = iprop(iprop((∃ d, owns (c : Thread nD τ) scM0_0 fullShare d) ∗ restO0 (F := F) c) ∗ (∃ r, prngReg c r)) := by
  unfold Pipeline.ΦA; rw [scopedRest0_eq]; simp only [scM0_0, owns_whole]; try rfl

end Cert.KernelIdeal.Hand

end
-- ==== Proof.KI.R0RunA.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import proofs.«111062_j11708080849226_1_alg».proof.Proof.KI.R0Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE A (first step of the reduction axis: the reset is taken, the finalization is not). On whole staging memrefs
    — the three inputs at their blocks, the two outputs (idle here) at any contents `xi3`, `xi4`, the accumulator at
    anything — the body runs to a continuation holding the inputs and the outputs as they were and the accumulator
    with its pieces written: the zero fill, then the first partial product added to it. The pieces are the witness. -/
noncomputable def kernelRun0_A (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunB.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import proofs.«111062_j11708080849226_1_alg».proof.Proof.KI.R0RunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE B (a middle step of the reduction axis: neither conditional is taken). On whole staging memrefs — the three
    inputs at their blocks, the two outputs (idle here) at any contents `xi3`, `xi4`, the accumulator at what the step
    before left (`xs0`) — the body runs to a continuation holding the inputs and the outputs as they were and the
    accumulator with its one piece written: this step's partial product added to `xs0`. -/
noncomputable def kernelRun0_B (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) :
    Σ' (L3 : List (View.Piece (Elt F) S256x1024 .f32)) (L4 : List (View.Piece (Elt F) S256x1024 .f32)), { LS0 : List (View.Piece (Elt F) S256x1024 .f32) //
      ∀ (xi3 xi4 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨[], [], ?_, fun xi3 xi4 E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0RunC.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import proofs.«111062_j11708080849226_1_alg».proof.Proof.KI.R0RunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE C (last step of the reduction axis: the reset is not taken, the finalization is). On whole staging memrefs —
    the three inputs at their blocks, the two outputs at anything, the accumulator at what the step before left
    (`xs0`) — the body runs to a continuation holding the inputs as they were, the accumulator with its one piece written
    (the last partial product added to `xs0`), and each output with its one piece written: from the leaky membrane
    potential (decay times the state block plus the finished sum), the spikes (output 3) and the surrogate (output 4). -/
noncomputable def kernelRun0_C (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) :
    Σ' (L3 : List (View.Piece (Elt F) S256x1024 .f32)) (L4 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__mem_kernel i arg2 harg2 arg3 harg3 arg4 harg4 arg5 harg5 arg6 harg6 arg7 harg7) K } := by
  refine ⟨?_, ?_, ?_, fun E K => ?run⟩
  case run =>
    simp only [cc0__mem_kernel_eq_skeleton]; unfold cc0__mem_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.KI.R0.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import proofs.«111062_j11708080849226_1_alg».proof.Proof.KI.R0RunC
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves in the outputs and in the accumulator -/

/-- In case A (the reset step) nothing is stored into output 3 (idle there, not written back, not read at the next point): no
    pieces; a placeholder nothing consults. -/
def out0_A_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) : Vec F S256x1024 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- In case A (the reset step) nothing is stored into output 4 (idle there, not written back, not read at the next point): no
    pieces; a placeholder nothing consults. -/
def out0_A_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) : Vec F S256x1024 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- In case A (the reset step) the accumulator's whole-block stores tile it, so its pieces cover it. -/
theorem scover0_A_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) (y : S256x1024.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S256x1024.size (by sl_kernel_rfl) y

/-- What case A (the reset step) leaves in the accumulator: its pieces read back. -/
def sout0_A_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) : Vec F S256x1024 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- In case B (a middle step) nothing is stored into output 3 (idle there, not written back, not read at the next point): no
    pieces; a placeholder nothing consults. -/
def out0_B_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) : Vec F S256x1024 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)

/-- In case B (a middle step) nothing is stored into output 4 (idle there, not written back, not read at the next point): no
    pieces; a placeholder nothing consults. -/
def out0_B_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) : Vec F S256x1024 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)

/-- In case B (a middle step) the accumulator's whole-block stores tile it, so its pieces cover it. -/
theorem scover0_B_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) (y : S256x1024.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S256x1024.size (by sl_kernel_rfl) y

/-- What case B (a middle step) leaves in the accumulator: its pieces read back. -/
def sout0_B_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) : Vec F S256x1024 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- In case C (the finalizing step) the one whole-block store into output 3 tiles its block, so its pieces cover it. -/
theorem cover0_C_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S256x1024.size (by sl_kernel_rfl) y

/-- What case C (the finalizing step) leaves in output 3's staging buffer: its pieces read back. -/
def out0_C_3 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) : Vec F S256x1024 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)

/-- In case C (the finalizing step) the one whole-block store into output 4 tiles its block, so its pieces cover it. -/
theorem cover0_C_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S256x1024.size (by sl_kernel_rfl) y

/-- What case C (the finalizing step) leaves in output 4's staging buffer: its pieces read back. -/
def out0_C_4 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) : Vec F S256x1024 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)

/-- In case C (the finalizing step) the accumulator's whole-block stores tile it, so its pieces cover it. -/
theorem scover0_C_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) (y : S256x1024.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S256x1024.size (by sl_kernel_rfl) y

/-- What case C (the finalizing step) leaves in the accumulator: its pieces read back. -/
def sout0_C_0 (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) : Vec F S256x1024 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

section
-- the TensorCore's buffer contents when the region is entered
variable (V : (c : Dev nD) → (b : Ref sig .tc) → Buf (Elt F) ((c : Thread nD τ).loc b))

/-! ## The accumulation along the reduction axis -/

/-- What output 3's and output 4's staging buffers and the accumulator hold after the body at position `n`: the case
    of `n % 4` run at the point's memrefs and input blocks, the accumulator entering at what position `n - 1` left
    (cases B and C; case A overwrites it). No position is in both the first and the last step. -/
def outsAt0 (c : Dev nD) : (n : ℕ) → n < cfg0.N → Vec F S256x1024 .f32 × Vec F S256x1024 .f32 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at a first step. -/
theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle step, over what the step before left. -/
theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last step, over what the step before left. -/
theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator is at anything; afterwards it
    is at what the point before left in it. The second call's staging buffers and the generator register ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restO0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restO0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restO0 (F := F) c) ∗ (∃ r, prngReg c r)) := by
  cases n with
  | zero => exact absurd rfl hz
  | succ n => rfl

/-! ## The region's proof data -/

/-- The arrays at the entry contents; after the body at point `t` each input's buffer at its block and the two outputs'
    at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; `t % 4` says which case the point is in; the case's
    run applies. The invariant hands the body the accumulator (at anything at the very first point, else at what the
    point before left) and takes it back at this point's contents, the pieces covering it; an idle output goes back
    untouched; at a last step each output is left at its covering pieces read back. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · -- first step of the reduction axis
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 4 = 3
    · -- last step of the reduction axis
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · -- a middle step of the reduction axis
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end

end Cert.KernelIdeal.Hand

end
-- ==== Proof.KI.R1.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the weight update, one block per grid point

At point (n, l) of the 4 × 4 grid the body loads the coefficient block (all 256 rows, columns of block n), the
trace block (all 256 rows, columns of block l) and the weight block (rows of block n, columns of block l), and
stores into the output block one value computed from the three. Nothing is kept between points. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-- The whole [256, 1024] buffer and the whole [1024, 1024] buffer as rectangles. -/
abbrev rTall : Rect S256x1024 := Rect.unit (s := S256x1024) ![0, 0] S256x1024.size inb_S256x1024_S256x1024_0_0
abbrev rSq : Rect S1024x1024 := Rect.unit (s := S1024x1024) ![0, 0] S1024x1024.size inb_S1024x1024_S1024x1024_0_0

/-- What the body leaves in the output's staging buffer: its one store, of the update computed from the three loads. -/
def out1_3 (x0 : Vec F S256x1024 .f32) (x1 : Vec F S256x1024 .f32) (x2 : Vec F S1024x1024 .f32) : Vec F S1024x1024 .f32 :=
  View.canon [⟨rSq, k1_pay1 (View.ld x0 rTall) (View.ld x1 rTall) (View.ld x2 rSq)⟩]

/-- The one store covers the buffer. -/
theorem cover1_3 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg2 : Memref sig .tc .vmem S256x1024 .f32) (harg2 : arg2.IsWhole)
    (arg3 : Memref sig .tc .vmem S256x1024 .f32) (harg3 : arg3.IsWhole) (arg4 : Memref sig .tc .vmem S1024x1024 .f32) (harg4 : arg4.IsWhole)
    (arg5 : Memref sig .tc .vmem S1024x1024 .f32) (harg5 : arg5.IsWhole)
    (x0 : Vec F S256x1024 .f32) (x1 : Vec F S256x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__dw_kernel i arg2 harg2 arg3 harg3 arg4 harg4 arg5 harg5) K := by
  simp only [cc1__dw_kernel_eq_skeleton]; unfold cc1__dw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

section
variable (V : (c : Dev nD) → (b : Ref sig .tc) → Buf (Elt F) ((c : Thread nD τ).loc b))

/-- The proof data of region 1 on core `c`: the arrays as the region finds them; after the body at point `t` each
    input's buffer at its block and the output's at `out1_3` of the three blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import proofs.«111062_j11708080849226_1_alg».proof.Proof.Gen.KernelIdeal.Regions
import proofs.«111062_j11708080849226_1_alg».proof.Proof.KI.R0
import proofs.«111062_j11708080849226_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program

The program is: the accumulating pass (a 4 × 4 grid whose second coordinate is a reduction, a running accumulator
kept in a scratch buffer from one point to the next), five stretches of array arithmetic over its two results and the
arguments, and the weight update (a 4 × 4 grid that keeps nothing between points). Here the two passes, each proved at an
arbitrary entry valuation, are instantiated at the valuations the program actually reaches, and chained with the
arithmetic between them into ONE statement: every weakly fair execution terminates, and at the end every unscoped
buffer of every core holds a value named below. The frame (the seven arguments end as launched) and the value of the
result array are read off that statement.

## The buffers' contents at each boundary -/

/-- Core `c`'s buffers at launch: what the accumulating pass is entered from. -/
abbrev Wl : Dev nD → Valuation τ sig (Elt F) := fun c b => (s₀ m ρ).mem ((c : Dev nD), b)
/-- The launch contents read at the core's own references. -/
abbrev VA : (c : Dev nD) → (b : Ref sig .tc) → Buf (Elt F) ((c : Thread nD τ).loc b) := fun c b => Wl m ρ c b
/-- After the accumulating pass: each of its five arrays at what its sixteen points leave there (an input untouched, an
    output with its write-backs folded in), every other buffer as launched. -/
def Wr0 (c : Dev nD) : Valuation τ sig (Elt F) :=
  Pipeline.withArrays spec0 c (Wl m ρ c) fun w => (dat0 (VA m ρ) c).arrAt w cfg0.N
theorem Wr0_arr (c : Dev nD) (w : Fin cfg0.W) :
    Wr0 m ρ c (Proc.devRef .tc (Pipeline.arrRef spec0 w)) = (dat0 (VA m ρ) c).arrAt w cfg0.N := by
  unfold Wr0; exact Pipeline.withArrays_arr spec0 launch0.win.arr_inj c _ _ w
theorem Wr0_of_ne (c : Dev nD) (b : Ref sig .tc) (hb : ∀ w, Pipeline.arrRef spec0 w ≠ b) :
    Wr0 m ρ c (Proc.devRef .tc b) = Wl m ρ c (Proc.devRef .tc b) := by
  unfold Wr0; exact Pipeline.withArrays_of_ne spec0 c _ _ b hb
/-- The two facts that put the accumulating pass's arrays back among the unscoped buffers at `Wr0`: each array holds
    what the pass leaves, every other buffer what it held at entry. -/
theorem Wr0_hF (c : Dev nD) (w : Fin cfg0.W) :
    (dat0 (VA m ρ) c).arrAt w cfg0.N = (fun b : Ref sig .tc => Wr0 m ρ c b) (Pipeline.arrRef spec0 w) :=
  (Wr0_arr m ρ c w).symm
theorem Wr0_hrest (c : Dev nD) :
    ∀ b, b ∉ Finset.univ.image (Pipeline.arrRef spec0) → (fun b : Ref sig .tc => Wr0 m ρ c b) b = VA m ρ c b :=
  fun b hb => Wr0_of_ne m ρ c b fun w e => hb (Finset.mem_image.mpr ⟨w, Finset.mem_univ _, e⟩)

/-- After the first stretch of arithmetic (thirty operations: a row gather, two row means, their combination with the scaled rate, its sign test). -/
abbrev Wh1 : Dev nD → Valuation τ sig (Elt F) := fun c => StableHlo.after hostOps1 (Wr0 m ρ c)
/-- After the first selection (the combination where positive, zero elsewhere). -/
abbrev Wh2 : Dev nD → Valuation τ sig (Elt F) := fun c => StableHlo.after hostOps1_1 (Wh1 m ρ c)
/-- After the comparison of the rate with its constant floor. -/
abbrev Wh3 : Dev nD → Valuation τ sig (Elt F) := fun c => StableHlo.after hostOps1_2 (Wh2 m ρ c)
/-- After the second selection (kept where the rate exceeds its floor, zero elsewhere). -/
abbrev Wh4 : Dev nD → Valuation τ sig (Elt F) := fun c => StableHlo.after hostOps1_3 (Wh3 m ρ c)
/-- After the last stretch (eighteen operations, ending in the weight update's two computed operands): what the weight
    update is entered from. -/
abbrev Wh5 : Dev nD → Valuation τ sig (Elt F) := fun c => StableHlo.after hostOps1_4 (Wh4 m ρ c)
/-- The weight update's entry contents read at the core's own references. -/
abbrev VB : (c : Dev nD) → (b : Ref sig .tc) → Buf (Elt F) ((c : Thread nD τ).loc b) := fun c b => Wh5 m ρ c b
/-- After the weight update: each of its four arrays at what its sixteen points leave there, every other buffer as
    it was entered. This is the valuation the program ends at. -/
def Wr1 (c : Dev nD) : Valuation τ sig (Elt F) :=
  Pipeline.withArrays spec1 c (Wh5 m ρ c) fun w => (dat1 (VB m ρ) c).arrAt w cfg1.N
theorem Wr1_arr (c : Dev nD) (w : Fin cfg1.W) :
    Wr1 m ρ c (Proc.devRef .tc (Pipeline.arrRef spec1 w)) = (dat1 (VB m ρ) c).arrAt w cfg1.N := by
  unfold Wr1; exact Pipeline.withArrays_arr spec1 launch1.win.arr_inj c _ _ w
theorem Wr1_of_ne (c : Dev nD) (b : Ref sig .tc) (hb : ∀ w, Pipeline.arrRef spec1 w ≠ b) :
    Wr1 m ρ c (Proc.devRef .tc b) = Wh5 m ρ c (Proc.devRef .tc b) := by
  unfold Wr1; exact Pipeline.withArrays_of_ne spec1 c _ _ b hb
theorem Wr1_hF (c : Dev nD) (w : Fin cfg1.W) :
    (dat1 (VB m ρ) c).arrAt w cfg1.N = (fun b : Ref sig .tc => Wr1 m ρ c b) (Pipeline.arrRef spec1 w) :=
  (Wr1_arr m ρ c w).symm
theorem Wr1_hrest (c : Dev nD) :
    ∀ b, b ∉ Finset.univ.image (Pipeline.arrRef spec1) → (fun b : Ref sig .tc => Wr1 m ρ c b) b = VB m ρ c b :=
  fun b hb => Wr1_of_ne m ρ c b fun w e => hb (Finset.mem_image.mpr ⟨w, Finset.mem_univ _, e⟩)

/-! ## The arguments end as launched

Walking the final valuation back to the launch at an argument's buffer: a pass either reads the argument through an
input window (whose array it leaves as found) or does not touch it; no stretch of arithmetic writes an argument. -/

/-- `main_arg0` ends as launched: the accumulating pass reads it through input window 0, the weight update bypasses it, and no host stretch writes it. -/
theorem Wr1_main_arg0 (c : Dev nD) : Wr1 m ρ c (Proc.devRef .tc main_arg0) = m ((c : Thread nD τ).loc main_arg0) :=
  calc Wr1 m ρ c (Proc.devRef .tc main_arg0)
    _ = Wh5 m ρ c (Proc.devRef .tc main_arg0) := Wr1_of_ne m ρ c main_arg0 (by decide)
    _ = Wh4 m ρ c (Proc.devRef .tc main_arg0) := StableHlo.after_of_writes_sub hostOps1_4 _ hostOps1_4_writes (by decide)
    _ = Wh3 m ρ c (Proc.devRef .tc main_arg0) := StableHlo.after_of_writes_sub hostOps1_3 _ hostOps1_3_writes (by decide)
    _ = Wh2 m ρ c (Proc.devRef .tc main_arg0) := StableHlo.after_of_writes_sub hostOps1_2 _ hostOps1_2_writes (by decide)
    _ = Wh1 m ρ c (Proc.devRef .tc main_arg0) := StableHlo.after_of_writes_sub hostOps1_1 _ hostOps1_1_writes (by decide)
    _ = Wr0 m ρ c (Proc.devRef .tc main_arg0) := StableHlo.after_of_writes_sub hostOps1 _ hostOps1_writes (by decide)
    _ = Wl m ρ c (Proc.devRef .tc main_arg0) := (Wr0_arr m ρ c 0).trans (((dat0 (VA m ρ) c).arrAt_in 0 rfl _).trans (A_eq0 (VA m ρ) c 0))
    _ = m ((c : Thread nD τ).loc main_arg0) := rfl

/-- `main_arg1` ends as launched: the accumulating pass bypasses it, the weight update bypasses it, and no host stretch writes it. -/
theorem Wr1_main_arg1 (c : Dev nD) : Wr1 m ρ c (Proc.devRef .tc main_arg1) = m ((c : Thread nD τ).loc main_arg1) :=
  calc Wr1 m ρ c (Proc.devRef .tc main_arg1)
    _ = Wh5 m ρ c (Proc.devRef .tc main_arg1) := Wr1_of_ne m ρ c main_arg1 (by decide)
    _ = Wh4 m ρ c (Proc.devRef .tc main_arg1) := StableHlo.after_of_writes_sub hostOps1_4 _ hostOps1_4_writes (by decide)
    _ = Wh3 m ρ c (Proc.devRef .tc main_arg1) := StableHlo.after_of_writes_sub hostOps1_3 _ hostOps1_3_writes (by decide)
    _ = Wh2 m ρ c (Proc.devRef .tc main_arg1) := StableHlo.after_of_writes_sub hostOps1_2 _ hostOps1_2_writes (by decide)
    _ = Wh1 m ρ c (Proc.devRef .tc main_arg1) := StableHlo.after_of_writes_sub hostOps1_1 _ hostOps1_1_writes (by decide)
    _ = Wr0 m ρ c (Proc.devRef .tc main_arg1) := StableHlo.after_of_writes_sub hostOps1 _ hostOps1_writes (by decide)
    _ = Wl m ρ c (Proc.devRef .tc main_arg1) := Wr0_of_ne m ρ c main_arg1 (by decide)
    _ = m ((c : Thread nD τ).loc main_arg1) := rfl

/-- `main_arg2` ends as launched: the accumulating pass bypasses it, the weight update bypasses it, and no host stretch writes it. -/
theorem Wr1_main_arg2 (c : Dev nD) : Wr1 m ρ c (Proc.devRef .tc main_arg2) = m ((c : Thread nD τ).loc main_arg2) :=
  calc Wr1 m ρ c (Proc.devRef .tc main_arg2)
    _ = Wh5 m ρ c (Proc.devRef .tc main_arg2) := Wr1_of_ne m ρ c main_arg2 (by decide)
    _ = Wh4 m ρ c (Proc.devRef .tc main_arg2) := StableHlo.after_of_writes_sub hostOps1_4 _ hostOps1_4_writes (by decide)
    _ = Wh3 m ρ c (Proc.devRef .tc main_arg2) := StableHlo.after_of_writes_sub hostOps1_3 _ hostOps1_3_writes (by decide)
    _ = Wh2 m ρ c (Proc.devRef .tc main_arg2) := StableHlo.after_of_writes_sub hostOps1_2 _ hostOps1_2_writes (by decide)
    _ = Wh1 m ρ c (Proc.devRef .tc main_arg2) := StableHlo.after_of_writes_sub hostOps1_1 _ hostOps1_1_writes (by decide)
    _ = Wr0 m ρ c (Proc.devRef .tc main_arg2) := StableHlo.after_of_writes_sub hostOps1 _ hostOps1_writes (by decide)
    _ = Wl m ρ c (Proc.devRef .tc main_arg2) := Wr0_of_ne m ρ c main_arg2 (by decide)
    _ = m ((c : Thread nD τ).loc main_arg2) := rfl

/-- `main_arg3` ends as launched: the accumulating pass reads it through input window 2, the weight update bypasses it, and no host stretch writes it. -/
theorem Wr1_main_arg3 (c : Dev nD) : Wr1 m ρ c (Proc.devRef .tc main_arg3) = m ((c : Thread nD τ).loc main_arg3) :=
  calc Wr1 m ρ c (Proc.devRef .tc main_arg3)
    _ = Wh5 m ρ c (Proc.devRef .tc main_arg3) := Wr1_of_ne m ρ c main_arg3 (by decide)
    _ = Wh4 m ρ c (Proc.devRef .tc main_arg3) := StableHlo.after_of_writes_sub hostOps1_4 _ hostOps1_4_writes (by decide)
    _ = Wh3 m ρ c (Proc.devRef .tc main_arg3) := StableHlo.after_of_writes_sub hostOps1_3 _ hostOps1_3_writes (by decide)
    _ = Wh2 m ρ c (Proc.devRef .tc main_arg3) := StableHlo.after_of_writes_sub hostOps1_2 _ hostOps1_2_writes (by decide)
    _ = Wh1 m ρ c (Proc.devRef .tc main_arg3) := StableHlo.after_of_writes_sub hostOps1_1 _ hostOps1_1_writes (by decide)
    _ = Wr0 m ρ c (Proc.devRef .tc main_arg3) := StableHlo.after_of_writes_sub hostOps1 _ hostOps1_writes (by decide)
    _ = Wl m ρ c (Proc.devRef .tc main_arg3) := (Wr0_arr m ρ c 2).trans (((dat0 (VA m ρ) c).arrAt_in 2 rfl _).trans (A_eq0 (VA m ρ) c 2))
    _ = m ((c : Thread nD τ).loc main_arg3) := rfl

/-- `main_arg4` ends as launched: the accumulating pass reads it through input window 1, the weight update reads it through input window 2, and no host stretch writes it. -/
theorem Wr1_main_arg4 (c : Dev nD) : Wr1 m ρ c (Proc.devRef .tc main_arg4) = m ((c : Thread nD τ).loc main_arg4) :=
  calc Wr1 m ρ c (Proc.devRef .tc main_arg4)
    _ = Wh5 m ρ c (Proc.devRef .tc main_arg4) := (Wr1_arr m ρ c 2).trans (((dat1 (VB m ρ) c).arrAt_in 2 rfl _).trans (A_eq1 (VB m ρ) c 2))
    _ = Wh4 m ρ c (Proc.devRef .tc main_arg4) := StableHlo.after_of_writes_sub hostOps1_4 _ hostOps1_4_writes (by decide)
    _ = Wh3 m ρ c (Proc.devRef .tc main_arg4) := StableHlo.after_of_writes_sub hostOps1_3 _ hostOps1_3_writes (by decide)
    _ = Wh2 m ρ c (Proc.devRef .tc main_arg4) := StableHlo.after_of_writes_sub hostOps1_2 _ hostOps1_2_writes (by decide)
    _ = Wh1 m ρ c (Proc.devRef .tc main_arg4) := StableHlo.after_of_writes_sub hostOps1_1 _ hostOps1_1_writes (by decide)
    _ = Wr0 m ρ c (Proc.devRef .tc main_arg4) := StableHlo.after_of_writes_sub hostOps1 _ hostOps1_writes (by decide)
    _ = Wl m ρ c (Proc.devRef .tc main_arg4) := (Wr0_arr m ρ c 1).trans (((dat0 (VA m ρ) c).arrAt_in 1 rfl _).trans (A_eq0 (VA m ρ) c 1))
    _ = m ((c : Thread nD τ).loc main_arg4) := rfl

/-- `main_arg5` ends as launched: the accumulating pass bypasses it, the weight update bypasses it, and no host stretch writes it. -/
theorem Wr1_main_arg5 (c : Dev nD) : Wr1 m ρ c (Proc.devRef .tc main_arg5) = m ((c : Thread nD τ).loc main_arg5) :=
  calc Wr1 m ρ c (Proc.devRef .tc main_arg5)
    _ = Wh5 m ρ c (Proc.devRef .tc main_arg5) := Wr1_of_ne m ρ c main_arg5 (by decide)
    _ = Wh4 m ρ c (Proc.devRef .tc main_arg5) := StableHlo.after_of_writes_sub hostOps1_4 _ hostOps1_4_writes (by decide)
    _ = Wh3 m ρ c (Proc.devRef .tc main_arg5) := StableHlo.after_of_writes_sub hostOps1_3 _ hostOps1_3_writes (by decide)
    _ = Wh2 m ρ c (Proc.devRef .tc main_arg5) := StableHlo.after_of_writes_sub hostOps1_2 _ hostOps1_2_writes (by decide)
    _ = Wh1 m ρ c (Proc.devRef .tc main_arg5) := StableHlo.after_of_writes_sub hostOps1_1 _ hostOps1_1_writes (by decide)
    _ = Wr0 m ρ c (Proc.devRef .tc main_arg5) := StableHlo.after_of_writes_sub hostOps1 _ hostOps1_writes (by decide)
    _ = Wl m ρ c (Proc.devRef .tc main_arg5) := Wr0_of_ne m ρ c main_arg5 (by decide)
    _ = m ((c : Thread nD τ).loc main_arg5) := rfl

/-- `main_arg6` ends as launched: the accumulating pass bypasses it, the weight update bypasses it, and no host stretch writes it. -/
theorem Wr1_main_arg6 (c : Dev nD) : Wr1 m ρ c (Proc.devRef .tc main_arg6) = m ((c : Thread nD τ).loc main_arg6) :=
  calc Wr1 m ρ c (Proc.devRef .tc main_arg6)
    _ = Wh5 m ρ c (Proc.devRef .tc main_arg6) := Wr1_of_ne m ρ c main_arg6 (by decide)
    _ = Wh4 m ρ c (Proc.devRef .tc main_arg6) := StableHlo.after_of_writes_sub hostOps1_4 _ hostOps1_4_writes (by decide)
    _ = Wh3 m ρ c (Proc.devRef .tc main_arg6) := StableHlo.after_of_writes_sub hostOps1_3 _ hostOps1_3_writes (by decide)
    _ = Wh2 m ρ c (Proc.devRef .tc main_arg6) := StableHlo.after_of_writes_sub hostOps1_2 _ hostOps1_2_writes (by decide)
    _ = Wh1 m ρ c (Proc.devRef .tc main_arg6) := StableHlo.after_of_writes_sub hostOps1_1 _ hostOps1_1_writes (by decide)
    _ = Wr0 m ρ c (Proc.devRef .tc main_arg6) := StableHlo.after_of_writes_sub hostOps1 _ hostOps1_writes (by decide)
    _ = Wl m ρ c (Proc.devRef .tc main_arg6) := Wr0_of_ne m ρ c main_arg6 (by decide)
    _ = m ((c : Thread nD τ).loc main_arg6) := rfl

/-- The result array ends at what the weight update's output window leaves. -/
theorem Wr1_out (c : Dev nD) : Wr1 m ρ c (Proc.devRef .tc main_v40) = (dat1 (VB m ρ) c).arrAt 3 cfg1.N :=
  Wr1_arr m ρ c 3

/-! ## The proof data of the two passes and the thread state between segments -/

/-- Neither pass has a prefetched table. -/
abbrev adm' : (p : Fin 2) → (pcfgs (F := F) p).Adm := fun p => (cfgs p).toPCfg_adm
/-- Each pass's proof data at the valuation the program enters it from. -/
def pdats : (p : Fin 2) → (c : Dev nD) → Dat τ (Elt F) Unit ℕ (UR sig nD τ) ℕ (Pipeline.pin (pcfgs (F := F)) adm' p) c
  | ⟨0, _⟩ => fun c => dat0 (VA m ρ) c
  | ⟨1, _⟩ => fun c => dat1 (VB m ρ) c
abbrev 𝒱₀ : Variants := Variants.none
/-- No core ever owes another a signal: no level is assigned. -/
abbrev L : GSem nD τ sig → Finset Unit := fun _ => ∅
abbrev lv : GSem nD τ sig → Unit → ℕ := fun _ _ => 0
/-- What a core carries beside its buffers through every segment: its generator register at some state, and the record
    that it owes nothing. -/
abbrev rider (c : Dev nD) : sProp 𝕄 := iprop((∃ r, prngReg c r) ∗ ∃ W, owes (c : Thread nD τ) (0 : CellTallies nD τ sig Unit) W)
/-- A stretch of arithmetic as a segment: from every unscoped buffer at `W` to every unscoped buffer at `W` advanced by
    the stretch, the rider untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the record of owing nothing: every unscoped buffer at `Wr1`, the generator
    register at some state. -/
abbrev Tₙ (c : Dev nD) : sProp 𝕄 := iprop(StableHlo.held (c : Thread nD τ) (Pipeline.ucRefs τ sig) (Wr1 m ρ c) ∗ ∃ r, prngReg c r)

/-! ## The two passes as segments -/

set_option backward.isDefEq.respectTransparency.types false in
/-- THE ACCUMULATING PASS as a segment: entered from every unscoped buffer at the launch contents, left at `Wr0`. Its five
    arrays are split out of the unscoped buffers and put back at their final contents. Its invariant is not the same
    at every point (the scratch buffer's contents move), so the generator register and the scoped buffers enter it at
    the first point and leave it at the last through the pass's own two entailments. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (Wl m ρ c) ∗ rider c)
  post c := iprop(StableHlo.held (c : Thread nD τ) (Pipeline.ucRefs τ sig) (Wr0 m ρ c) ∗ rider c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (VA m ρ c) fun w => A_eq0 (VA m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (?_ : _ ⊢ (Pipeline.ΦA spec0 c : sProp 𝕄)) (hin0 (VA m ρ) c)
    unfold Pipeline.ΦA
    iintro ⟨Hp, -, Hr⟩
    isplitl [Hr]; · iexact Hr
    iexact Hp
  hout c := by
    rw [Pipeline.ownSems0_none]
    refine BI.Entails.trans (hout0 (VA m ρ) c) (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (VA m ρ c) (fun b => Wr0 m ρ c b) ((pdats m ρ 0 c).arrAt · cfg0.N) (Wr0_hF m ρ c) (Wr0_hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE WEIGHT UPDATE as a segment: entered from every unscoped buffer at `Wh5`, left at `Wr1` (the end). Its invariant
    is the same at every point: the scoped buffers no window stages, and the generator register. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (Wh5 m ρ c) ∗ rider c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (VB m ρ c) fun w => A_eq1 (VB m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (VB m ρ c) (fun b => Wr1 m ρ c b) ((pdats m ρ 1 c).arrAt · cfg1.N) (Wr1_hF m ρ c) (Wr1_hrest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as seven segments, and the launch -/

/-- The program's seven segments in order. -/
abbrev mainSegs : List (Pipeline.Seg (pcfgs (F := F)) adm' (pdats m ρ) () defs₀ 𝒱₀ L lv) :=
  [ .region (reg0 m ρ),
    .host (hseg hostOps1 hostOps1_sub hostOps1_fresh (Wr0 m ρ)),
    .host (hseg hostOps1_1 hostOps1_1_sub hostOps1_1_fresh (Wh1 m ρ)),
    .host (hseg hostOps1_2 hostOps1_2_sub hostOps1_2_fresh (Wh2 m ρ)),
    .host (hseg hostOps1_3 hostOps1_3_sub hostOps1_3_fresh (Wh3 m ρ)),
    .host (hseg hostOps1_4 hostOps1_4_sub hostOps1_4_fresh (Wh4 m ρ)),
    .region (reg1 m ρ) ]
/-- The program IS the run of those segments. -/
theorem main_run (c : Dev nD) : main (F := F) c = Pipeline.Seg.run (mainSegs m ρ) := (main_chain c).trans (by chain_rfl)

set_option backward.isDefEq.respectTransparency.types false in
/-- THE RUN. From any memory with zero counters, every weakly fair execution of the program on the cores terminates,
    nothing faulting, and in every final state every unscoped buffer of every core holds its value under `Wr1`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wr1 m ρ c b) :=
  Pipeline.θ_run_regions_kit (pcfgs (F := F)) adm' (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ rider c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wr1 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wr1 m ρ c) s')
      isplitl [Hh] <;> iassumption)
    (hQ := fun s h c => h c)

/-- THE FRAME: the program runs, and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Wr1_main_arg0 m ρ c),
     (h c _ (mem_uc main_arg1 (by decide))).trans (Wr1_main_arg1 m ρ c),
     (h c _ (mem_uc main_arg2 (by decide))).trans (Wr1_main_arg2 m ρ c),
     (h c _ (mem_uc main_arg3 (by decide))).trans (Wr1_main_arg3 m ρ c),
     (h c _ (mem_uc main_arg4 (by decide))).trans (Wr1_main_arg4 m ρ c),
     (h c _ (mem_uc main_arg5 (by decide))).trans (Wr1_main_arg5 m ρ c),
     (h c _ (mem_uc main_arg6 (by decide))).trans (Wr1_main_arg6 m ρ c)⟩) (run_all m ρ)

/-- THE VALUE RUN: the program runs, the result array ends at what the weight update's output window leaves from the
    entry valuation `Wh5`, and the seven argument arrays end as launched. -/
theorem run_value : θ_run defs (onTc (τ := τ) (main (F := F))) ⟨m, fun _ => 0, ρ⟩ (fun r => ∀ c : Dev nD,
      r.2.mem ((c.tc : Thread nD τ).loc main_v40) = (dat1 (VB m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v40 (by decide))).trans (Wr1_out m ρ c),
     (h c _ (mem_uc main_arg0 (by decide))).trans (Wr1_main_arg0 m ρ c),
     (h c _ (mem_uc main_arg1 (by decide))).trans (Wr1_main_arg1 m ρ c),
     (h c _ (mem_uc main_arg2 (by decide))).trans (Wr1_main_arg2 m ρ c),
     (h c _ (mem_uc main_arg3 (by decide))).trans (Wr1_main_arg3 m ρ c),
     (h c _ (mem_uc main_arg4 (by decide))).trans (Wr1_main_arg4 m ρ c),
     (h c _ (mem_uc main_arg5 (by decide))).trans (Wr1_main_arg5 m ρ c),
     (h c _ (mem_uc main_arg6 (by decide))).trans (Wr1_main_arg6 m ρ c)⟩) (run_all m ρ)

end Cert.KernelIdeal.Hand

end
-- ==== Proof.KI.R0Pieces.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import proofs.«111062_j11708080849226_1_alg».proof.Proof.KI.R0
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block access, however spelt. -/
theorem hzero2 : (![0, 0] : Fin 2 → Nat) = fun _ => 0 := funext fun a => by fin_cases a <;> rfl

/-! ## The pieces in closed form

Every store of the body is a whole-block store, so what a buffer holds afterwards is the payload of its LAST store,
and every load is a whole-block load, reading the contents (or the payload of the store before it). -/

/-- First step: the accumulator is zero-filled, read back, and the first partial product added: the product over the zero block. -/
theorem sout0_A_0_eq (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : cond0_0 i) (hc1 : ¬cond0_1 i)
    (x0 : Vec F S256x1024 .f32) (x1 : Vec F S1024x1024 .f32) (x2 : Vec F S256x1024 .f32) :
    sout0_A_0 c i arg2 harg2 arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S256x1024) hzero2]
  simp only [View.readCov_unit_zero (S := S256x1024) _ hzero2, View.readAt_eq_ld, harg2.read_unread, harg3.read_unread, harg4.read_unread, harg7.read_unread, View.ld_unit_zero (S := S256x1024) hzero2, View.ld_unit_zero (S := S1024x1024) hzero2]

/-- Middle step: the accumulator gains this step's partial product. -/
theorem sout0_B_0_eq (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : ¬cond0_1 i)
    (x0 : Vec F S256x1024 .f32) (x1 : Vec F S1024x1024 .f32) (x2 : Vec F S256x1024 .f32) (xs0 : Vec F S256x1024 .f32) :
    sout0_B_0 c i arg2 harg2 arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero (S := S256x1024) hzero2]
  simp only [View.readCov_unit_zero (S := S256x1024) _ hzero2, View.readAt_eq_ld, harg2.read_unread, harg3.read_unread, harg4.read_unread, harg7.read_unread, View.ld_unit_zero (S := S256x1024) hzero2, View.ld_unit_zero (S := S1024x1024) hzero2]

/-- Last step: the accumulator gains the last partial product. -/
theorem sout0_C_0_eq (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) :
    sout0_C_0 c i arg2 harg2 arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero (S := S256x1024) hzero2]
  simp only [View.readCov_unit_zero (S := S256x1024) _ hzero2, View.readAt_eq_ld, harg2.read_unread, harg3.read_unread, harg4.read_unread, harg7.read_unread, View.ld_unit_zero (S := S256x1024) hzero2, View.ld_unit_zero (S := S1024x1024) hzero2]

/-- Last step: the spikes, from the state block and the finished sum. -/
theorem out0_C_3_eq (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) :
    out0_C_3 c i arg2 harg2 arg3 harg3 arg4 harg4 arg5 harg5 arg6 harg6 arg7 harg7 hc0 hc1 x0 x1 x2 xs0 = k0_pay4 x2 (k0_pay2 xs0 x0 x1) := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero (S := S256x1024) hzero2]
  simp only [View.readCov_unit_zero (S := S256x1024) _ hzero2, View.readAt_eq_ld, harg2.read_unread, harg3.read_unread, harg4.read_unread, harg7.read_unread, View.ld_unit_zero (S := S256x1024) hzero2, View.ld_unit_zero (S := S1024x1024) hzero2]

/-- Last step: the surrogate, from the state block and the finished sum. -/
theorem out0_C_4_eq (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (hc0 : ¬cond0_0 i) (hc1 : cond0_1 i)
    (x0 : Vec F S256x1024 .f32) (x1 : Vec F S1024x1024 .f32) (x2 : Vec F S256x1024 .f32) (xs0 : Vec F S256x1024 .f32) :
    out0_C_4 c i arg2 harg2 arg3 harg3 arg4 harg4 arg5 harg5 arg6 harg6 arg7 harg7 hc0 hc1 x0 x1 x2 xs0 = k0_pay5 x2 (k0_pay2 xs0 x0 x1) := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero (S := S256x1024) hzero2]
  simp only [View.readCov_unit_zero (S := S256x1024) _ hzero2, View.readAt_eq_ld, harg2.read_unread, harg3.read_unread, harg4.read_unread, harg7.read_unread, View.ld_unit_zero (S := S256x1024) hzero2, View.ld_unit_zero (S := S1024x1024) hzero2]

end Cert.KernelIdeal.Hand

end
-- ==== Proof.KI.R0Math.lean ====
/-
  The arithmetic behind region 0, with no program in sight.

  (1) A sum of 4096 extended reals, taken as four consecutive blocks of 1024 terms and folded from the left
      starting at zero, is the whole sum. Only associativity of + and 0 + a = a are used: the extended reals
      are a commutative additive monoid, so no term need be finite.
  (2) A compare bit, widened with zeros to 32 bits and then read as a SIGNED integer, is the same real
      (0 or 1) as the bit read as an UNSIGNED integer: the widened word's sign bit is clear.
-/
import Mathlib.Algebra.BigOperators.Fin
import Mathlib.Algebra.BigOperators.Group.Finset.Basic
import Mathlib.Data.EReal.Basic
import Idealize.ShloMosaic.PureOps.Ideal
import Idealize.ShloMosaic.PureOps.Ideal.Laws
import Idealize.ShloMosaic.Lib.ValueIdx

noncomputable section

namespace Cert.R0Math

open Idealize.ShloMosaic

/-! ## The block-sum law -/

/-- The sum of the terms of block `l`: the 1024 terms numbered `l · 1024 + k`. -/
def blockSum (f : ℕ → EReal) (l : ℕ) : EReal := ∑ k : Fin 1024, f (l * 1024 + k.val)

/-- The left fold over the blocks 0 … l, started at zero: ((0 + block 0) + block 1) + … + block l. -/
def accUpTo (f : ℕ → EReal) : ℕ → EReal
  | 0 => 0 + blockSum f 0
  | l + 1 => accUpTo f l + blockSum f (l + 1)

theorem accUpTo_zero (f : ℕ → EReal) : accUpTo f 0 = 0 + blockSum f 0 := rfl
theorem accUpTo_succ (f : ℕ → EReal) (l : ℕ) : accUpTo f (l + 1) = accUpTo f l + blockSum f (l + 1) := rfl

/-- A block's sum over the range 0 … 1023. -/
theorem blockSum_eq_range (f : ℕ → EReal) (l : ℕ) : blockSum f l = ∑ k ∈ Finset.range 1024, f (l * 1024 + k) :=
  Fin.sum_univ_eq_sum_range (fun k => f (l * 1024 + k)) 1024

/-- Four blocks of 1024 terms, folded from the left from zero, are the sum of all 4096 terms. -/
theorem accUpTo_three (f : ℕ → EReal) : accUpTo f 3 = ∑ k : Fin 4096, f k.val := by
  rw [Fin.sum_univ_eq_sum_range (fun k => f k) 4096]
  show (((0 + blockSum f 0) + blockSum f 1) + blockSum f 2) + blockSum f 3 = _
  rw [blockSum_eq_range, blockSum_eq_range, blockSum_eq_range, blockSum_eq_range, zero_add,
    show (4096 : ℕ) = 1024 + 1024 + 1024 + 1024 from rfl, Finset.sum_range_add, Finset.sum_range_add, Finset.sum_range_add]
  simp only [Nat.zero_mul, Nat.zero_add, Nat.one_mul]

/-! ## The compare bit as a float -/

/-- The zero-extended bit read signed is the bit read unsigned. -/
theorem toInt_setWidth_bit (v : BitVec 1) : ((v.setWidth 32).toInt : ℝ) = ((v.toNat : ℕ) : ℝ) := by
  have h : ∀ v : BitVec 1, (v.setWidth 32).toInt = (v.toNat : ℤ) := by decide
  rw [h v]; norm_cast

/-- At the exact instance the signed conversion of the widened bit is the unsigned conversion of the bit. -/
theorem sitofp_setWidth_bit (v : BitVec 1) :
    FloatOps.sitofp (F := Ideal) .f32 (v.setWidth 32) = FloatOps.uitofp (F := Ideal) .f32 v := by
  show (((v.setWidth 32).toInt : ℝ) : EReal) = (((v.toNat : ℕ) : ℝ) : EReal)
  rw [toInt_setWidth_bit]

/-- The vector form: entry by entry. -/
theorem sitofp_extui_bit {S : Shape} (v : IVec S 1) (h : 1 < 32) :
    sitofp (F := Ideal) .f32 (extui 32 v h) = uitofp (F := Ideal) .f32 v :=
  funext fun i => sitofp_setWidth_bit (v i)

end Cert.R0Math

end
-- ==== Proof.Spec.lean ====
/-
  The weight update as whole-array functions, written with the host operations themselves.

  With x : [256, 4096] the input, W : [4096, 4096] the weights and mem : [256, 4096] the membrane state,
    memOut  = 0.95 · mem + x · Wᵀ                     (a sum over the 4096 input coordinates)
    spikes  = 1 where memOut > 1, else 0
    surr    = 1 / (1 + (π · (memOut − 1))²)
  The rows of the output trace are compared with the rows picked by the index vector (negative
  entries counted from the end): the two row means of spikes · trace give a loss per row, kept where it is
  positive and where the scalar activity exceeds its threshold; its indicator, negated, scales
  (trace − picked trace) · surr into the coefficient array. The new input trace is 0.95 · in_trace + x, and
    result = W − 0.01 · ((coefᵀ · traceNew) / 2²⁰)     (a sum over the 256 rows).
-/
import proofs.«111062_j11708080849226_1_alg».proof.Proof.Gen.ReferenceIdeal

noncomputable section

namespace Cert.Spec

open Idealize.ShloMosaic Cert.ReferenceIdeal Cert.ReferenceIdeal.Gen

variable {F : FTy → Type} [FloatOps F]

/-- One float word at every entry of a [256, 4096] array. -/
def splat (w : BitVec 32) : FVec F S256x4096 .f32 := broadcastInDim S256x4096 ![] bcast_S_S256x4096 (constant S_ .f32 w)
/-- One float word at every entry of a length-256 vector. -/
def splatRow (w : BitVec 32) : FVec F S256 .f32 := broadcastInDim S256 ![] bcast_S_S256 (constant S_ .f32 w)
/-- One float word at every entry of a [4096, 4096] array. -/
def splatSq (w : BitVec 32) : FVec F S4096x4096 .f32 := broadcastInDim S4096x4096 ![] bcast_S_S4096x4096 (constant S_ .f32 w)

/-- memOut = 0.95 · mem + x · Wᵀ. -/
def memOut (x mem : FVec F S256x4096 .f32) (W : FVec F S4096x4096 .f32) : FVec F S256x4096 .f32 :=
  addf (mulf (splat 0x3F733333#32) mem)
    (Host.dotGeneral dot_S256x4096_S4096x4096_S256x4096_1_0_0_1_n_n none x (transpose S4096x4096 [1, 0] W transposes_S4096x4096_S4096x4096_1_0))

/-- The indicator of memOut > 1, as a float. -/
def spikes (mo : FVec F S256x4096 .f32) : FVec F S256x4096 .f32 :=
  uitofp .f32 (cmpf .ogt mo (splat 0x3F800000#32))

/-- 1 / (1 + (π · (memOut − 1))²). -/
def surr (mo : FVec F S256x4096 .f32) : FVec F S256x4096 .f32 :=
  Host.divf (splat 0x3F800000#32)
    (addf (splat 0x3F800000#32)
      (mulf (mulf (splat 0x40490FDB#32) (subf mo (splat 0x3F800000#32))) (mulf (splat 0x40490FDB#32) (subf mo (splat 0x3F800000#32)))))

/-- The row indices, a negative one counted from the end, as a column. -/
def pickIdx (ridx : IVec S256 32) : IVec S256x1 32 :=
  broadcastInDim S256x1 ![0] bcast_S256_S256x1_0
    (select (cmpi .slt ridx (broadcastInDim S256 ![] bcast_S_S256 (constantI S_ 32 0#32)))
      (addi ridx (broadcastInDim S256 ![] bcast_S_S256 (constantI S_ 32 256#32))) ridx)

/-- The rows of the trace picked by the index vector. -/
def picked (otr : FVec F S256x4096 .f32) (ridx : IVec S256 32) : FVec F S256x4096 .f32 :=
  Host.gather gather_S256x4096_S256x1_S256x4096_1_0_n_n_0_1_14096 otr (pickIdx ridx)

/-- The mean of each row: its sum over the 4096 columns, divided by 4096. -/
def rowMean (a : FVec F S256x4096 .f32) : FVec F S256 .f32 :=
  Host.divf (Host.reduceAdd a (constant S_ .f32 0x00000000#32) reducesTo_S256x4096_S256_d1 h_S_) (splatRow 0x45800000#32)

/-- 0.1 · activity − mean(spikes · trace) + mean(spikes · picked trace), per row. -/
def lossRaw (sp otr : FVec F S256x4096 .f32) (isum : FVec F S_ .f32) (ridx : IVec S256 32) : FVec F S256 .f32 :=
  addf (subf (broadcastInDim S256 ![] bcast_S_S256 (mulf (constant S_ .f32 0x3DCCCCCD#32) isum)) (rowMean (mulf sp otr)))
    (rowMean (mulf sp (picked otr ridx)))

/-- Whether the scalar activity exceeds 0.02, at every row. -/
def active (isum : FVec F S_ .f32) : IVec S256 1 :=
  broadcastInDim S256 ![] bcast_S_S256 (cmpf .ogt isum (constant S_ .f32 0x3CA3D70A#32))

/-- The loss kept where it is positive, then where the activity exceeds its threshold; zero elsewhere. -/
def lossKept (sp otr : FVec F S256x4096 .f32) (isum : FVec F S_ .f32) (ridx : IVec S256 32) : FVec F S256 .f32 :=
  select (active isum)
    (select (cmpf .ogt (lossRaw sp otr isum ridx) (splatRow 0x00000000#32)) (lossRaw sp otr isum ridx) (splatRow 0x00000000#32))
    (splatRow 0x00000000#32)

/-- The indicator (as a float) of a positive kept loss under an active input, per row. -/
def gate (sp otr : FVec F S256x4096 .f32) (isum : FVec F S_ .f32) (ridx : IVec S256 32) : FVec F S256 .f32 :=
  uitofp .f32 (andi (cmpf .ogt (lossKept sp otr isum ridx) (splatRow 0x00000000#32)) (active isum))

/-- coef = (−gate, as a column, along each row) · (trace − picked trace) · surr. -/
def coef (sp su otr : FVec F S256x4096 .f32) (isum : FVec F S_ .f32) (ridx : IVec S256 32) : FVec F S256x4096 .f32 :=
  mulf (mulf (broadcastInDim S256x4096 ![0, 1] bcast_S256x1_S256x4096_0_1
        (Host.negf (broadcastInDim S256x1 ![0] bcast_S256_S256x1_0 (gate sp otr isum ridx))))
      (subf otr (picked otr ridx))) su

/-- traceNew = 0.95 · in_trace + x. -/
def traceNew (itr x : FVec F S256x4096 .f32) : FVec F S256x4096 .f32 :=
  addf (mulf (splat 0x3F733333#32) itr) x

/-- W − 0.01 · ((coefᵀ · traceNew) / 2²⁰): entry (k, l) sums coef b k · traceNew b l over the 256 rows b. -/
def update (cf tn : FVec F S256x4096 .f32) (W : FVec F S4096x4096 .f32) : FVec F S4096x4096 .f32 :=
  subf W (mulf (splatSq 0x3C23D70A#32)
    (Host.divf (Host.dotGeneral dot_S256x4096_S256x4096_S4096x4096_0_0_1_1_n_n none cf tn) (splatSq 0x49800000#32)))

/-- The whole result as a function of the seven arguments. -/
def result (x itr otr mem : FVec F S256x4096 .f32) (W : FVec F S4096x4096 .f32) (isum : FVec F S_ .f32) (ridx : IVec S256 32) :
    FVec F S4096x4096 .f32 :=
  update (coef (spikes (memOut x mem W)) (surr (memOut x mem W)) otr isum ridx) (traceNew itr x) W

end Cert.Spec

end
-- ==== Proof.KI.R0Pay.lean ====
/-
  Region 0's arithmetic read at an index, at the exact instance (every float an extended real).

  The accumulate step: the new accumulator at (b, j) is the old one plus the sum over the 1024 columns k of
  x b k · W j k — the matrix product contracts the SECOND axis of both blocks. The reset leaves 0 everywhere.
  The finalization reads the membrane potential v = 0.95 · mem + acc and stores the indicator of v > 1 and
  1 / (1 + (π · (v − 1))²). On the other side the whole-array function memOut at (b, i) is 0.95 · mem b i plus the
  sum over all 4096 columns k of x b k · W i k, and spikes / surr are the same two functions of it.
-/
import proofs.«111062_j11708080849226_1_alg».proof.Proof.Gen.KernelIdeal.Skeleton
import proofs.«111062_j11708080849226_1_alg».proof.Proof.Gen.ReferenceIdeal.Read
import proofs.«111062_j11708080849226_1_alg».proof.Proof.KI.R0Math
import proofs.«111062_j11708080849226_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-! ## The accumulate step -/

/-- Left operand, axis 0: the output's row. -/
theorem lhs_accDot_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- Left operand, axis 1: the contracted column. -/
theorem lhs_accDot_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- Right operand, axis 0: the output's column (a row of the weight block). -/
theorem rhs_accDot_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- Right operand, axis 1: the contracted column. -/
theorem rhs_accDot_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product of an activation block with a weight block, at (b, j): the sum over k of x b k · W j k. -/
theorem accDot_apply (x : Vec Ideal S256x1024 .f32) (W : Vec Ideal S1024x1024 .f32) (b : Fin 256) (j : Fin 1024) :
    FloatOps.matmul (F := Ideal) (φ₁ := .f32) (φ₂ := .f32) dot_S256x1024_S1024x1024_S256x1024_1_1_0_0_n_n none x W (constant S256x1024 .f32 0x00000000#32) (ix2 b j)
      = ∑ k : Fin 1024, x (ix2 b k) * W (ix2 j k) := by
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 b j) ((contrEquiv1 dot_S256x1024_S1024x1024_S256x1024_1_1_0_0_n_n 1024 rfl rfl).symm k) = ix2 b k := funext fun a => Fin.ext (by
    match a with
    | ⟨0, _⟩ => exact lhs_accDot_0 _ _
    | ⟨1, _⟩ => exact (lhs_accDot_1 _ _).trans hk)
  have er : dot_S256x1024_S1024x1024_S256x1024_1_1_0_0_n_n.rhsIdx (ix2 b j) ((contrEquiv1 dot_S256x1024_S1024x1024_S256x1024_1_1_0_0_n_n 1024 rfl rfl).symm k) = ix2 j k := funext fun a => Fin.ext (by
    match a with
    | ⟨0, _⟩ => exact rhs_accDot_0 _ _
    | ⟨1, _⟩ => exact (rhs_accDot_1 _ _).trans hk)
  rw [el, er]

/-- The accumulate step at (b, j): the old accumulator plus the block product. -/
theorem pay2_apply (acc x : Vec Ideal S256x1024 .f32) (W : Vec Ideal S1024x1024 .f32) (b : Fin 256) (j : Fin 1024) :
    k0_pay2 (F := Ideal) acc x W (ix2 b j) = acc (ix2 b j) + ∑ k : Fin 1024, x (ix2 b k) * W (ix2 j k) := by
  unfold k0_pay2
  refine (congrFun (shapeCast_self _ _) (ix2 b j)).trans ?_
  exact congrArg (acc (ix2 b j) + ·) (accDot_apply x W b j)

/-- The reset leaves zero everywhere. -/
theorem pay1_apply (y : S256x1024.Idx) : k0_pay1 (F := Ideal) y = 0 := by
  unfold k0_pay1
  refine (congrFun (shapeCast_self _ _) y).trans ?_
  exact Ideal.ofBits_zero_f32

/-! ## The finalization -/

/-- The membrane potential from a state block and a finished accumulator, entry by entry. -/
theorem pay3_apply (mb acc : Vec Ideal S256x1024 .f32) (y : S256x1024.Idx) :
    k0_pay3 (F := Ideal) mb acc y = Ideal.ofBits .f32 0x3F733333#32 * mb y + acc y := rfl

/-- The spikes stored: the indicator, as a float, of potential > 1. -/
theorem pay4_apply (mb acc : Vec Ideal S256x1024 .f32) (y : S256x1024.Idx) :
    k0_pay4 (F := Ideal) mb acc y
      = FloatOps.uitofp (F := Ideal) .f32 (FloatOps.cmpf (F := Ideal) .ogt (k0_pay3 (F := Ideal) mb acc y) (Ideal.ofBits .f32 0x3F800000#32)) := by
  unfold k0_pay4
  exact congrFun (Cert.R0Math.sitofp_extui_bit _ _) y

/-- The surrogate stored: 1 / (1 + (π · (potential − 1))²). -/
theorem pay5_apply (mb acc : Vec Ideal S256x1024 .f32) (y : S256x1024.Idx) :
    k0_pay5 (F := Ideal) mb acc y
      = Ideal.div (Ideal.ofBits .f32 0x3F800000#32)
          (Ideal.ofBits .f32 0x3F800000#32
            + (Ideal.ofBits .f32 0x40490FDB#32 * (k0_pay3 (F := Ideal) mb acc y - Ideal.ofBits .f32 0x3F800000#32))
              * (Ideal.ofBits .f32 0x40490FDB#32 * (k0_pay3 (F := Ideal) mb acc y - Ideal.ofBits .f32 0x3F800000#32))) := rfl

/-! ## The whole-array functions at an index -/

/-- A splat reads its word everywhere. -/
theorem splat_apply (w : BitVec 32) (i : S256x4096.Idx) : Cert.Spec.splat (F := Ideal) w i = Ideal.ofBits .f32 w := by
  unfold Cert.Spec.splat
  exact broadcastInDim_apply _ _ _ i (fun a => a.elim0) (fun a => a.elim0)

/-- memOut at (b, i): 0.95 · mem b i + the sum over all 4096 columns k of x b k · W i k. -/
theorem memOut_apply (x mem : FVec Ideal S256x4096 .f32) (W : FVec Ideal S4096x4096 .f32) (b : Fin 256) (i : Fin 4096) :
    Cert.Spec.memOut (F := Ideal) x mem W (ix2 b i)
      = Ideal.ofBits .f32 0x3F733333#32 * mem (ix2 b i) + ∑ k : Fin 4096, x (ix2 b k) * W (ix2 i k) := by
  show Cert.Spec.splat (F := Ideal) 0x3F733333#32 (ix2 b i) * mem (ix2 b i) + Cert.ReferenceIdeal.Read.val_main_v3 (F := Ideal) x W (ix2 b i) = _
  rw [splat_apply, Cert.ReferenceIdeal.Read.val_main_v3_apply]
  refine congrArg (_ + ·) (Finset.sum_congr rfl fun k _ => ?_)
  rw [Cert.ReferenceIdeal.Read.val_main_v2_apply]
  have el : Cert.ReferenceIdeal.Read.lidx_main_v3 (ix2 b i) k = ix2 b k := funext fun a => by
    match a with
    | ⟨0, _⟩ => rfl
    | ⟨1, _⟩ => rfl
  have er : Cert.ReferenceIdeal.Read.idx_main_v2 (Cert.ReferenceIdeal.Read.ridx_main_v3 (ix2 b i) k) = ix2 i k := funext fun a => by
    match a with
    | ⟨0, _⟩ => rfl
    | ⟨1, _⟩ => rfl
  rw [el, er]

/-- spikes at an index. -/
theorem spikes_apply (mo : FVec Ideal S256x4096 .f32) (i : S256x4096.Idx) :
    Cert.Spec.spikes (F := Ideal) mo i
      = FloatOps.uitofp (F := Ideal) .f32 (FloatOps.cmpf (F := Ideal) .ogt (mo i) (Ideal.ofBits .f32 0x3F800000#32)) := by
  show FloatOps.uitofp (F := Ideal) .f32 (FloatOps.cmpf (F := Ideal) .ogt (mo i) (Cert.Spec.splat (F := Ideal) 0x3F800000#32 i)) = _
  rw [splat_apply]

/-- surr at an index. -/
theorem surr_apply (mo : FVec Ideal S256x4096 .f32) (i : S256x4096.Idx) :
    Cert.Spec.surr (F := Ideal) mo i
      = Ideal.div (Ideal.ofBits .f32 0x3F800000#32)
          (Ideal.ofBits .f32 0x3F800000#32
            + (Ideal.ofBits .f32 0x40490FDB#32 * (mo i - Ideal.ofBits .f32 0x3F800000#32))
              * (Ideal.ofBits .f32 0x40490FDB#32 * (mo i - Ideal.ofBits .f32 0x3F800000#32))) := by
  show Ideal.div (Cert.Spec.splat (F := Ideal) 0x3F800000#32 i)
          (Cert.Spec.splat (F := Ideal) 0x3F800000#32 i
            + (Cert.Spec.splat (F := Ideal) 0x40490FDB#32 i * (mo i - Cert.Spec.splat (F := Ideal) 0x3F800000#32 i))
              * (Cert.Spec.splat (F := Ideal) 0x40490FDB#32 i * (mo i - Cert.Spec.splat (F := Ideal) 0x3F800000#32 i))) = _
  simp only [splat_apply]

end Cert.KernelIdeal.Hand

end
-- ==== Proof.KI.R0Value.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import proofs.«111062_j11708080849226_1_alg».proof.Proof.KI.R0
import proofs.«111062_j11708080849226_1_alg».proof.Proof.KI.R0Pieces
import proofs.«111062_j11708080849226_1_alg».proof.Proof.KI.R0Math
import proofs.«111062_j11708080849226_1_alg».proof.Proof.KI.R0Pay
import proofs.«111062_j11708080849226_1_alg».proof.Proof.Spec
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # Region 0's value: the accumulator along the reduction axis, and the two outputs as whole arrays

Point t = 4 n + l of the grid works on output-column block n and reduction block l. The accumulator after the point
holds, at (b, j), the left fold over the reduction blocks 0 … l of the block sums of x b k · W (1024 n + j) k, started
from zero at l = 0 — whatever the rows before left, since l = 0 resets. At l = 3 that is the whole sum over the 4096
columns, and the stores of that point are the spikes and the surrogate of 0.95 · mem + that sum: block n of the
whole-array functions. The four flushing points tile the columns. -/

section
variable (V : (c : Dev nD) → (b : Ref sig .tc) → Buf (Elt Ideal) ((c : Thread nD τ).loc b))

/-- The three argument arrays, at their literal types. -/
abbrev xArr (c : Dev nD) : Vec Ideal S256x4096 .f32 := V c main_arg0
abbrev wArr (c : Dev nD) : Vec Ideal S4096x4096 .f32 := V c main_arg4
abbrev mArr (c : Dev nD) : Vec Ideal S256x4096 .f32 := V c main_arg3
/-- Their blocks at point `t`, at their literal types. -/
abbrev xBlk (c : Dev nD) (t : Fin cfg0.N) : Vec Ideal S256x1024 .f32 := iblk0 V c 0 t
abbrev wBlk (c : Dev nD) (t : Fin cfg0.N) : Vec Ideal S1024x1024 .f32 := iblk0 V c 1 t
abbrev mBlk (c : Dev nD) (t : Fin cfg0.N) : Vec Ideal S256x1024 .f32 := iblk0 V c 2 t

/-- Column `j` of output-column block `n / 4`. -/
abbrev outCol (n : ℕ) (j : Fin 1024) : Fin 4096 := ⟨n / 4 % 4 * 1024 + j.val, by have := j.isLt; omega⟩
/-- Column `k` of reduction block `n % 4`. -/
abbrev redCol (n : ℕ) (k : Fin 1024) : Fin 4096 := ⟨n % 4 * 1024 + k.val, by have := k.isLt; omega⟩

/-- The block indices of the five windows at point `t`, decided over the 16 points. -/
theorem blockIdx0 : ∀ t : Fin cfg0.N,
    win0_0.index t (0 : Fin 2) = 0 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = 0 ∧ win0_3.index t (1 : Fin 2) = t.val / 4 % 4
    ∧ win0_4.index t (0 : Fin 2) = 0 ∧ win0_4.index t (1 : Fin 2) = t.val / 4 % 4 :=
  (by decide +kernel : ∀ t : Fin grid0.N, _)

/-- The activation block at (b, k) is x at row b, column k of reduction block t % 4. -/
theorem xBlk_apply (c : Dev nD) (t : Fin cfg0.N) (b : Fin 256) (k : Fin 1024) :
    xBlk V c t (ix2 b k) = xArr V c (ix2 b (redCol t.val k)) := by
  obtain ⟨e0, e1, -⟩ := blockIdx0 t
  show ((cfg0.win 0).blk t).view.read (Elt Ideal) (V c (Pipeline.arrRef spec0 0)) (ix2 b k) = V c main_arg0 (ix2 b (redCol t.val k))
  rw [View.read_apply]
  show V c main_arg0 _ = V c main_arg0 _
  congr 1
  funext a
  apply Fin.ext
  match a with
  | ⟨0, _⟩ => show win0_0.index t (0 : Fin 2) * 256 + 1 * b.val = b.val; rw [e0]; omega
  | ⟨1, _⟩ => show win0_0.index t (1 : Fin 2) * 1024 + 1 * k.val = t.val % 4 * 1024 + k.val; rw [e1]; omega

/-- The weight block at (j, k) is W at row j of output-column block t / 4, column k of reduction block t % 4. -/
theorem wBlk_apply (c : Dev nD) (t : Fin cfg0.N) (j k : Fin 1024) :
    wBlk V c t (ix2 j k) = wArr V c (ix2 (outCol t.val j) (redCol t.val k)) := by
  obtain ⟨-, -, e0, e1, -⟩ := blockIdx0 t
  show ((cfg0.win 1).blk t).view.read (Elt Ideal) (V c (Pipeline.arrRef spec0 1)) (ix2 j k) = V c main_arg4 (ix2 (outCol t.val j) (redCol t.val k))
  rw [View.read_apply]
  show V c main_arg4 _ = V c main_arg4 _
  congr 1
  funext a
  apply Fin.ext
  match a with
  | ⟨0, _⟩ => show win0_1.index t (0 : Fin 2) * 1024 + 1 * j.val = t.val / 4 % 4 * 1024 + j.val; rw [e0]; omega
  | ⟨1, _⟩ => show win0_1.index t (1 : Fin 2) * 1024 + 1 * k.val = t.val % 4 * 1024 + k.val; rw [e1]; omega

/-- The state block at (b, j) is mem at row b, column j of output-column block t / 4. -/
theorem mBlk_apply (c : Dev nD) (t : Fin cfg0.N) (b : Fin 256) (j : Fin 1024) :
    mBlk V c t (ix2 b j) = mArr V c (ix2 b (outCol t.val j)) := by
  obtain ⟨-, -, -, -, e0, e1, -⟩ := blockIdx0 t
  show ((cfg0.win 2).blk t).view.read (Elt Ideal) (V c (Pipeline.arrRef spec0 2)) (ix2 b j) = V c main_arg3 (ix2 b (outCol t.val j))
  rw [View.read_apply]
  show V c main_arg3 _ = V c main_arg3 _
  congr 1
  funext a
  apply Fin.ext
  match a with
  | ⟨0, _⟩ => show win0_2.index t (0 : Fin 2) * 256 + 1 * b.val = b.val; rw [e0]; omega
  | ⟨1, _⟩ => show win0_2.index t (1 : Fin 2) * 1024 + 1 * j.val = t.val / 4 % 4 * 1024 + j.val; rw [e1]; omega

/-! ## What each case leaves, as the payloads of the blocks -/

/-- A first step (l = 0) leaves the first block product added to the zero fill. -/
theorem acc_first (c : Dev nD) (t : Fin cfg0.N) (h0 : t.val % 4 = 0) (h1 : ¬t.val % 4 = 3) :
    (outsAt0 V c t.val t.isLt).2.2 = k0_pay2 (k0_pay1 (F := Ideal)) (xBlk V c t) (wBlk V c t) := by
  rw [outsAt0_A V c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xBlk V c t) (wBlk V c t) (mBlk V c t)

/-- A later step (l > 0) leaves its block product added to what the step before left. -/
theorem acc_later (c : Dev nD) (t : Fin cfg0.N) (h0 : ¬t.val % 4 = 0) :
    (outsAt0 V c t.val t.isLt).2.2 = k0_pay2 (outsAt0 V c (t.val - 1) (Nat.lt_of_le_of_lt (Nat.sub_le _ _) t.isLt)).2.2 (xBlk V c t) (wBlk V c t) := by
  by_cases h1 : t.val % 4 = 3
  · rw [outsAt0_C V c t h0 h1]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk V c t) (wBlk V c t) (mBlk V c t) (outsAt0 V c (t.val - 1) (Nat.lt_of_le_of_lt (Nat.sub_le _ _) t.isLt)).2.2
  · rw [outsAt0_B V c t h0 h1]
    dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xBlk V c t) (wBlk V c t) (mBlk V c t) (outsAt0 V c (t.val - 1) (Nat.lt_of_le_of_lt (Nat.sub_le _ _) t.isLt)).2.2

/-- A last step (l = 3) stores the spikes of the state block and the finished accumulator. -/
theorem out3_last (c : Dev nD) (t : Fin cfg0.N) (h0 : ¬t.val % 4 = 0) (h1 : t.val % 4 = 3) :
    (outsAt0 V c t.val t.isLt).1 = k0_pay4 (mBlk V c t) (k0_pay2 (outsAt0 V c (t.val - 1) (Nat.lt_of_le_of_lt (Nat.sub_le _ _) t.isLt)).2.2 (xBlk V c t) (wBlk V c t)) := by
  rw [outsAt0_C V c t h0 h1]
  dsimp only
  exact out0_C_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk V c t) (wBlk V c t) (mBlk V c t) (outsAt0 V c (t.val - 1) (Nat.lt_of_le_of_lt (Nat.sub_le _ _) t.isLt)).2.2

/-- A last step stores the surrogate of the same. -/
theorem out4_last (c : Dev nD) (t : Fin cfg0.N) (h0 : ¬t.val % 4 = 0) (h1 : t.val % 4 = 3) :
    (outsAt0 V c t.val t.isLt).2.1 = k0_pay5 (mBlk V c t) (k0_pay2 (outsAt0 V c (t.val - 1) (Nat.lt_of_le_of_lt (Nat.sub_le _ _) t.isLt)).2.2 (xBlk V c t) (wBlk V c t)) := by
  rw [outsAt0_C V c t h0 h1]
  dsimp only
  exact out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xBlk V c t) (wBlk V c t) (mBlk V c t) (outsAt0 V c (t.val - 1) (Nat.lt_of_le_of_lt (Nat.sub_le _ _) t.isLt)).2.2

/-! ## The accumulator is the fold over the reduction blocks -/

/-- The k-th term of the sum for row b and output column i: x b k · W i k (zero past the 4096 columns). -/
def term (c : Dev nD) (b : Fin 256) (i : Fin 4096) (k : ℕ) : EReal :=
  if h : k < 4096 then xArr V c (ix2 b ⟨k, h⟩) * wArr V c (ix2 i ⟨k, h⟩) else 0

theorem term_of_lt (c : Dev nD) (b : Fin 256) (i : Fin 4096) (k : ℕ) (h : k < 4096) :
    term V c b i k = xArr V c (ix2 b ⟨k, h⟩) * wArr V c (ix2 i ⟨k, h⟩) := dif_pos h

/-- The block product of point t at (b, j) is the block sum of the terms over reduction block t % 4. -/
theorem blockProduct_eq (c : Dev nD) (t : Fin cfg0.N) (b : Fin 256) (j : Fin 1024) :
    ∑ k : Fin 1024, xBlk V c t (ix2 b k) * wBlk V c t (ix2 j k)
      = Cert.R0Math.blockSum (term V c b (outCol t.val j)) (t.val % 4) := by
  unfold Cert.R0Math.blockSum
  refine Finset.sum_congr rfl fun k _ => ?_
  rw [term_of_lt V c b (outCol t.val j) (t.val % 4 * 1024 + k.val) (redCol t.val k).isLt, xBlk_apply, wBlk_apply]

/-- THE INVARIANT: after point n = 4 q + l the accumulator at (b, j) is the fold over the reduction blocks 0 … l of the
    terms for row b and column j of block q, by induction on the point. -/
theorem acc_eq (c : Dev nD) : ∀ (n : ℕ) (hn : n < cfg0.N) (b : Fin 256) (j : Fin 1024),
    (outsAt0 V c n hn).2.2 (ix2 b j) = Cert.R0Math.accUpTo (term V c b (outCol n j)) (n % 4) := by
  have first : ∀ (t : Fin cfg0.N), t.val % 4 = 0 → ∀ (b : Fin 256) (j : Fin 1024),
      (outsAt0 V c t.val t.isLt).2.2 (ix2 b j) = Cert.R0Math.accUpTo (term V c b (outCol t.val j)) (t.val % 4) := by
    intro t h0 b j
    refine (congrFun (acc_first V c t h0 (by omega)) (ix2 b j)).trans ((pay2_apply _ _ _ b j).trans ?_)
    rw [pay1_apply, blockProduct_eq, h0]
    rfl
  intro n
  induction n with
  | zero => intro hn b j; exact first ⟨0, hn⟩ rfl b j
  | succ n ih =>
    intro hn b j
    by_cases h0 : (n + 1) % 4 = 0
    · exact first ⟨n + 1, hn⟩ h0 b j
    · refine (congrFun (acc_later V c ⟨n + 1, hn⟩ h0) (ix2 b j)).trans ((pay2_apply _ _ _ b j).trans ?_)
      rw [blockProduct_eq]
      show (outsAt0 V c n _).2.2 (ix2 b j) + Cert.R0Math.blockSum (term V c b (outCol (n + 1) j)) ((n + 1) % 4) = _
      have hcol : outCol (n + 1) j = outCol n j := Fin.ext (by show (n + 1) / 4 % 4 * 1024 + j.val = n / 4 % 4 * 1024 + j.val; omega)
      have hl : (n + 1) % 4 = n % 4 + 1 := by omega
      rw [ih (Nat.lt_of_succ_lt hn) b j, hcol, hl]
      rfl

/-! ## From the flushed blocks to the arrays -/

/-- The membrane potential a last step computes at (b, j) is memOut at row b, column j of block t / 4: the finished
    accumulator is the fold over all four reduction blocks, which is the whole sum over the 4096 columns. -/
theorem potential_eq (c : Dev nD) (t : Fin cfg0.N) (h0 : ¬t.val % 4 = 0) (h3 : t.val % 4 = 3) (b : Fin 256) (j : Fin 1024) :
    k0_pay3 (F := Ideal) (mBlk V c t) (k0_pay2 (outsAt0 V c (t.val - 1) (Nat.lt_of_le_of_lt (Nat.sub_le _ _) t.isLt)).2.2 (xBlk V c t) (wBlk V c t)) (ix2 b j)
      = Cert.Spec.memOut (F := Ideal) (xArr V c) (mArr V c) (wArr V c) (ix2 b (outCol t.val j)) := by
  rw [pay3_apply, memOut_apply, mBlk_apply]
  congr 1
  rw [← acc_later V c t h0, acc_eq V c t.val t.isLt b j, h3, Cert.R0Math.accUpTo_three]
  refine Finset.sum_congr rfl fun k _ => ?_
  exact term_of_lt V c b (outCol t.val j) k.val k.isLt

/-- WHAT A LAST STEP WRITES BACK into output 3 is block t / 4 of the spikes of memOut of the three argument arrays. -/
theorem flushed3_eq (c : Dev nD) (t : Fin cfg0.N) (hf : (cfg0.win 3).flush t = true) :
    (dat0 V c).flushed 3 t = ((cfg0.win 3).blk t).view.read (Elt Ideal)
      (Cert.Spec.spikes (F := Ideal) (Cert.Spec.memOut (F := Ideal) (xArr V c) (mArr V c) (wArr V c))) := by
  have h3 : t.val % 4 = 3 := (flush0_3 t).mp hf
  have h0 : ¬t.val % 4 = 0 := by omega
  obtain ⟨-, -, -, -, -, -, e30, e31, e40, e41⟩ := blockIdx0 t
  show (cfg0.win 3).cut (grid0.coords t) ((dat0 V c).after 3 t) = _
  rw [after0_3, out3_last V c t h0 h3]
  funext y
  rw [View.read_apply]
  have hy0 : (y 0).val < 256 := (y 0).isLt
  have hy1 : (y 1).val < 1024 := (y 1).isLt
  have el : (cfg0.win 3).xinj (grid0.coords t) y = ix2 (⟨(y 0).val, hy0⟩ : Fin 256) (⟨(y 1).val, hy1⟩ : Fin 1024) := funext fun a => by
    match a with
    | ⟨0, _⟩ => rfl
    | ⟨1, _⟩ => rfl
  have er : ((cfg0.win 3).blk t).view.emb y = ix2 (⟨(y 0).val, hy0⟩ : Fin 256) (outCol t.val ⟨(y 1).val, hy1⟩) := funext fun a => Fin.ext (by
    match a with
    | ⟨0, _⟩ => show win0_3.index t (0 : Fin 2) * 256 + 1 * (y 0).val = (y 0).val; rw [e30]; omega
    | ⟨1, _⟩ => show win0_3.index t (1 : Fin 2) * 1024 + 1 * (y 1).val = t.val / 4 % 4 * 1024 + (y 1).val; rw [e31]; omega)
  show k0_pay4 (F := Ideal) (mBlk V c t) (k0_pay2 (outsAt0 V c (t.val - 1) (Nat.lt_of_le_of_lt (Nat.sub_le _ _) t.isLt)).2.2 (xBlk V c t) (wBlk V c t)) ((cfg0.win 3).xinj (grid0.coords t) y) = _
  rw [el, er, pay4_apply, spikes_apply, potential_eq V c t h0 h3]
  exact (cast_eq _ _).symm

/-- An index of output 3's array is in point t's block iff each coordinate is in the block's range on its axis. -/
theorem mem_blk3 (t : Fin cfg0.N) (i : S256x4096.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v0_0).slice (win0_3.rect t)).set ↔ _
  rw [View.set_slice_whole, Rect.mem_set_unit]
  exact Iff.rfl

/-- The four last steps tile output 3's columns: column i₁ lies in the block of point 4 · (i₁ / 1024) + 3. -/
theorem cover3 (i : S256x4096.Idx) : ∃ t : Fin cfg0.N, (cfg0.win 3).flush t = true ∧ i ∈ ((cfg0.win 3).blk t).view.set := by
  have hi0 : (i 0).val < 256 := (i 0).isLt
  have hi1 : (i 1).val < 4096 := (i 1).isLt
  have hN : cfg0.N = 16 := N_0
  obtain ⟨t, ht⟩ : ∃ t : Fin cfg0.N, t.val = (i 1).val / 1024 * 4 + 3 := ⟨⟨(i 1).val / 1024 * 4 + 3, by omega⟩, rfl⟩
  obtain ⟨-, -, -, -, -, -, e30, e31, e40, e41⟩ := blockIdx0 t
  refine ⟨t, (flush0_3 t).mpr (by omega), ?_⟩
  rw [mem_blk3]
  intro a
  match a with
  | ⟨0, _⟩ => show win0_3.index t (0 : Fin 2) * 256 ≤ (i 0).val ∧ (i 0).val < win0_3.index t (0 : Fin 2) * 256 + 256; rw [e30]; omega
  | ⟨1, _⟩ => show win0_3.index t (1 : Fin 2) * 1024 ≤ (i 1).val ∧ (i 1).val < win0_3.index t (1 : Fin 2) * 1024 + 1024; rw [e31]; omega

/-- So output 3's array ends holding the spikes of memOut. -/
theorem final0_3 (c : Dev nD) :
    (dat0 (F := Ideal) V c).arrAt 3 cfg0.N
      = Cert.Spec.spikes (F := Ideal) (Cert.Spec.memOut (V c main_arg0) (V c main_arg3) (V c main_arg4)) :=
  (dat0 V c).arrAt_eq_of_cover 3 _ (fun t hf => flushed3_eq V c t hf) cover3

/-- WHAT A LAST STEP WRITES BACK into output 4 is block t / 4 of the surrogate of memOut of the three argument arrays. -/
theorem flushed4_eq (c : Dev nD) (t : Fin cfg0.N) (hf : (cfg0.win 4).flush t = true) :
    (dat0 V c).flushed 4 t = ((cfg0.win 4).blk t).view.read (Elt Ideal)
      (Cert.Spec.surr (F := Ideal) (Cert.Spec.memOut (F := Ideal) (xArr V c) (mArr V c) (wArr V c))) := by
  have h3 : t.val % 4 = 3 := (flush0_4 t).mp hf
  have h0 : ¬t.val % 4 = 0 := by omega
  obtain ⟨-, -, -, -, -, -, e30, e31, e40, e41⟩ := blockIdx0 t
  show (cfg0.win 4).cut (grid0.coords t) ((dat0 V c).after 4 t) = _
  rw [after0_4, out4_last V c t h0 h3]
  funext y
  rw [View.read_apply]
  have hy0 : (y 0).val < 256 := (y 0).isLt
  have hy1 : (y 1).val < 1024 := (y 1).isLt
  have el : (cfg0.win 4).xinj (grid0.coords t) y = ix2 (⟨(y 0).val, hy0⟩ : Fin 256) (⟨(y 1).val, hy1⟩ : Fin 1024) := funext fun a => by
    match a with
    | ⟨0, _⟩ => rfl
    | ⟨1, _⟩ => rfl
  have er : ((cfg0.win 4).blk t).view.emb y = ix2 (⟨(y 0).val, hy0⟩ : Fin 256) (outCol t.val ⟨(y 1).val, hy1⟩) := funext fun a => Fin.ext (by
    match a with
    | ⟨0, _⟩ => show win0_4.index t (0 : Fin 2) * 256 + 1 * (y 0).val = (y 0).val; rw [e40]; omega
    | ⟨1, _⟩ => show win0_4.index t (1 : Fin 2) * 1024 + 1 * (y 1).val = t.val / 4 % 4 * 1024 + (y 1).val; rw [e41]; omega)
  show k0_pay5 (F := Ideal) (mBlk V c t) (k0_pay2 (outsAt0 V c (t.val - 1) (Nat.lt_of_le_of_lt (Nat.sub_le _ _) t.isLt)).2.2 (xBlk V c t) (wBlk V c t)) ((cfg0.win 4).xinj (grid0.coords t) y) = _
  rw [el, er, pay5_apply, surr_apply, potential_eq V c t h0 h3]
  exact (cast_eq _ _).symm

/-- An index of output 4's array is in point t's block iff each coordinate is in the block's range on its axis. -/
theorem mem_blk4 (t : Fin cfg0.N) (i : S256x4096.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v0_1).slice (win0_4.rect t)).set ↔ _
  rw [View.set_slice_whole, Rect.mem_set_unit]
  exact Iff.rfl

/-- The four last steps tile output 4's columns: column i₁ lies in the block of point 4 · (i₁ / 1024) + 3. -/
theorem cover4 (i : S256x4096.Idx) : ∃ t : Fin cfg0.N, (cfg0.win 4).flush t = true ∧ i ∈ ((cfg0.win 4).blk t).view.set := by
  have hi0 : (i 0).val < 256 := (i 0).isLt
  have hi1 : (i 1).val < 4096 := (i 1).isLt
  have hN : cfg0.N = 16 := N_0
  obtain ⟨t, ht⟩ : ∃ t : Fin cfg0.N, t.val = (i 1).val / 1024 * 4 + 3 := ⟨⟨(i 1).val / 1024 * 4 + 3, by omega⟩, rfl⟩
  obtain ⟨-, -, -, -, -, -, e30, e31, e40, e41⟩ := blockIdx0 t
  refine ⟨t, (flush0_4 t).mpr (by omega), ?_⟩
  rw [mem_blk4]
  intro a
  match a with
  | ⟨0, _⟩ => show win0_4.index t (0 : Fin 2) * 256 ≤ (i 0).val ∧ (i 0).val < win0_4.index t (0 : Fin 2) * 256 + 256; rw [e40]; omega
  | ⟨1, _⟩ => show win0_4.index t (1 : Fin 2) * 1024 ≤ (i 1).val ∧ (i 1).val < win0_4.index t (1 : Fin 2) * 1024 + 1024; rw [e41]; omega

/-- So output 4's array ends holding the surrogate of memOut. -/
theorem final0_4 (c : Dev nD) :
    (dat0 (F := Ideal) V c).arrAt 4 cfg0.N
      = Cert.Spec.surr (F := Ideal) (Cert.Spec.memOut (V c main_arg0) (V c main_arg3) (V c main_arg4)) :=
  (dat0 V c).arrAt_eq_of_cover 4 _ (fun t hf => flushed4_eq V c t hf) cover4

end

end Cert.KernelIdeal.Hand

end
-- ==== Proof.KI.R1ValueA.lean ====
import proofs.«111062_j11708080849226_1_alg».proof.Proof.Gen.KernelIdeal.Skeleton
import proofs.«111062_j11708080849226_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.ShloMosaic.ValueIdx
open Cert.KernelIdeal Cert.KernelIdeal.Gen
open scoped BigOperators

/-! # The weight update at one entry

Entry (k, l) of the result is the weight W (k, l) less 0.01 times the quotient by 2²⁰ of the sum over the 256 rows b
of coef (b, k) · trace (b, l). The block product of region 1 and the whole-array product of the specification are both
that sum: each contracts the first axis of both operands, so at output index (p, q) the left operand is read at
(b, p) and the right at (b, q). -/

/-- One entry of the update from the weight `w` there and the contraction `s` there: w − 0.01 · (s / 2²⁰). -/
def updEntry (w s : EReal) : EReal :=
  w - Ideal.ofBits .f32 0x3C23D70A#32 * Ideal.div s (Ideal.ofBits .f32 0x49800000#32)

/-! ## The block product: [256, 1024]ᵀ · [256, 1024] -/

/-- The left operand's row coordinate is the contraction's. -/
theorem lhs_blockDot_0 (j : S1024x1024.Idx) (q : dot_S256x1024_S256x1024_S1024x1024_0_0_1_1_n_n.contr.Idx) :
    (dot_S256x1024_S256x1024_S1024x1024_0_0_1_1_n_n.lhsIdx j q 0).val = (q ⟨0, by decide⟩).val :=
  dot_S256x1024_S256x1024_S1024x1024_0_0_1_1_n_n.lhsIdx_val_of_single rfl j q
/-- The left operand's column coordinate is the output's row coordinate. -/
theorem lhs_blockDot_1 (j : S1024x1024.Idx) (q : dot_S256x1024_S256x1024_S1024x1024_0_0_1_1_n_n.contr.Idx) :
    (dot_S256x1024_S256x1024_S1024x1024_0_0_1_1_n_n.lhsIdx j q 1).val = (j 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
/-- The right operand's row coordinate is the contraction's. -/
theorem rhs_blockDot_0 (j : S1024x1024.Idx) (q : dot_S256x1024_S256x1024_S1024x1024_0_0_1_1_n_n.contr.Idx) :
    (dot_S256x1024_S256x1024_S1024x1024_0_0_1_1_n_n.rhsIdx j q 0).val = (q ⟨0, by decide⟩).val :=
  dot_S256x1024_S256x1024_S1024x1024_0_0_1_1_n_n.rhsIdx_val_of_single rfl j q
/-- The right operand's column coordinate is the output's column coordinate. -/
theorem rhs_blockDot_1 (j : S1024x1024.Idx) (q : dot_S256x1024_S256x1024_S1024x1024_0_0_1_1_n_n.contr.Idx) :
    (dot_S256x1024_S256x1024_S1024x1024_0_0_1_1_n_n.rhsIdx j q 1).val = (j 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- The block product into the zero accumulator, at (p, q): the sum over the rows b of x0 (b, p) · x1 (b, q). -/
theorem blockDot_apply (x0 x1 : FVec Ideal S256x1024 .f32) (p q : Fin 1024) :
    matmul dot_S256x1024_S256x1024_S1024x1024_0_0_1_1_n_n none x0 x1 (constant S1024x1024 .f32 0x00000000#32) (ix2 p q)
      = ∑ b : Fin 256, x0 (ix2 b p) * x1 (ix2 b q) := by
  show FloatOps.matmul dot_S256x1024_S256x1024_S1024x1024_0_0_1_1_n_n none x0 x1 (constant S1024x1024 .f32 0x00000000#32) (ix2 p q) = _
  rw [Ideal.matmul_constant_zero_apply, ← Equiv.sum_comp (contrEquiv1 dot_S256x1024_S256x1024_S1024x1024_0_0_1_1_n_n 256 rfl rfl).symm]
  refine Finset.sum_congr rfl fun k _ => ?_
  have hk := contrEquiv1_symm_val dot_S256x1024_S256x1024_S1024x1024_0_0_1_1_n_n 256 rfl rfl k
  have el : dot_S256x1024_S256x1024_S1024x1024_0_0_1_1_n_n.lhsIdx (ix2 p q) ((contrEquiv1 dot_S256x1024_S256x1024_S1024x1024_0_0_1_1_n_n 256 rfl rfl).symm k) = ix2 k p := funext fun a => Fin.ext (by
    match a with
    | ⟨0, _⟩ => exact (lhs_blockDot_0 _ _).trans hk
    | ⟨1, _⟩ => exact lhs_blockDot_1 _ _)
  have er : dot_S256x1024_S256x1024_S1024x1024_0_0_1_1_n_n.rhsIdx (ix2 p q) ((contrEquiv1 dot_S256x1024_S256x1024_S1024x1024_0_0_1_1_n_n 256 rfl rfl).symm k) = ix2 k q := funext fun a => Fin.ext (by
    match a with
    | ⟨0, _⟩ => exact (rhs_blockDot_0 _ _).trans hk
    | ⟨1, _⟩ => exact rhs_blockDot_1 _ _)
  rw [el, er]

/-- What the body stores, at (p, q) of its block: the update's entry from the weight block there and the block product there. -/
theorem k1_pay1_apply (x0 x1 : Vec Ideal S256x1024 .f32) (x2 : Vec Ideal S1024x1024 .f32) (p q : Fin 1024) :
    k1_pay1 (F := Ideal) x0 x1 x2 (ix2 p q) = updEntry (x2 (ix2 p q)) (∑ b : Fin 256, x0 (ix2 b p) * x1 (ix2 b q)) := by
  unfold k1_pay1
  simp only [shapeCast_self]
  rw [subf_apply, mulf_apply, divf_apply, blockDot_apply]
  rfl

/-! ## The whole product: [256, 4096]ᵀ · [256, 4096] -/

/-- The left operand's row coordinate is the contraction's. -/
theorem lhs_wholeDot_0 (i : Cert.ReferenceIdeal.S4096x4096.Idx) (q : Cert.ReferenceIdeal.dot_S256x4096_S256x4096_S4096x4096_0_0_1_1_n_n.contr.Idx) :
    (Cert.ReferenceIdeal.dot_S256x4096_S256x4096_S4096x4096_0_0_1_1_n_n.lhsIdx i q 0).val = (q ⟨0, by decide⟩).val :=
  Cert.ReferenceIdeal.dot_S256x4096_S256x4096_S4096x4096_0_0_1_1_n_n.lhsIdx_val_of_single rfl i q
/-- The left operand's column coordinate is the output's row coordinate. -/
theorem lhs_wholeDot_1 (i : Cert.ReferenceIdeal.S4096x4096.Idx) (q : Cert.ReferenceIdeal.dot_S256x4096_S256x4096_S4096x4096_0_0_1_1_n_n.contr.Idx) :
    (Cert.ReferenceIdeal.dot_S256x4096_S256x4096_S4096x4096_0_0_1_1_n_n.lhsIdx i q 1).val = (i 0).val := by
  unfold DotDims.lhsIdx
  rw [dif_neg (show ¬(1 : Fin Cert.ReferenceIdeal.S256x4096.rank) ∈ Cert.ReferenceIdeal.dot_S256x4096_S256x4096_S4096x4096_0_0_1_1_n_n.lhsBatch by decide), dif_pos (show (1 : Fin Cert.ReferenceIdeal.S256x4096.rank) ∈ Cert.ReferenceIdeal.dot_S256x4096_S256x4096_S4096x4096_0_0_1_1_n_n.lhsNonContracting by decide)]
  rfl
/-- The right operand's row coordinate is the contraction's. -/
theorem rhs_wholeDot_0 (i : Cert.ReferenceIdeal.S4096x4096.Idx) (q : Cert.ReferenceIdeal.dot_S256x4096_S256x4096_S4096x4096_0_0_1_1_n_n.contr.Idx) :
    (Cert.ReferenceIdeal.dot_S256x4096_S256x4096_S4096x4096_0_0_1_1_n_n.rhsIdx i q 0).val = (q ⟨0, by decide⟩).val :=
  Cert.ReferenceIdeal.dot_S256x4096_S256x4096_S4096x4096_0_0_1_1_n_n.rhsIdx_val_of_single rfl i q
/-- The right operand's column coordinate is the output's column coordinate. -/
theorem rhs_wholeDot_1 (i : Cert.ReferenceIdeal.S4096x4096.Idx) (q : Cert.ReferenceIdeal.dot_S256x4096_S256x4096_S4096x4096_0_0_1_1_n_n.contr.Idx) :
    (Cert.ReferenceIdeal.dot_S256x4096_S256x4096_S4096x4096_0_0_1_1_n_n.rhsIdx i q 1).val = (i 1).val := by
  unfold DotDims.rhsIdx
  rw [dif_neg (show ¬(1 : Fin Cert.ReferenceIdeal.S256x4096.rank) ∈ Cert.ReferenceIdeal.dot_S256x4096_S256x4096_S4096x4096_0_0_1_1_n_n.rhsBatch by decide), dif_pos (show (1 : Fin Cert.ReferenceIdeal.S256x4096.rank) ∈ Cert.ReferenceIdeal.dot_S256x4096_S256x4096_S4096x4096_0_0_1_1_n_n.rhsNonContracting by decide)]
  rfl

/-- The whole product at (k, l): the sum over the rows b of cf (b, k) · tn (b, l). -/
theorem wholeDot_apply (cf tn : FVec Ideal Cert.ReferenceIdeal.S256x4096 .f32) (k l : Fin 4096) :
    Host.dotGeneral (F := Ideal) Cert.ReferenceIdeal.dot_S256x4096_S256x4096_S4096x4096_0_0_1_1_n_n none cf tn (ix2 k l)
      = ∑ b : Fin 256, cf (ix2 b k) * tn (ix2 b l) := by
  show FloatOps.dotGeneral Cert.ReferenceIdeal.dot_S256x4096_S256x4096_S4096x4096_0_0_1_1_n_n none .single cf tn (ix2 k l) = _
  rw [Ideal.dotGeneral_apply, ← Equiv.sum_comp (contrEquiv1 Cert.ReferenceIdeal.dot_S256x4096_S256x4096_S4096x4096_0_0_1_1_n_n 256 rfl rfl).symm]
  refine Finset.sum_congr rfl fun b _ => ?_
  have hb := contrEquiv1_symm_val Cert.ReferenceIdeal.dot_S256x4096_S256x4096_S4096x4096_0_0_1_1_n_n 256 rfl rfl b
  have el : Cert.ReferenceIdeal.dot_S256x4096_S256x4096_S4096x4096_0_0_1_1_n_n.lhsIdx (ix2 k l) ((contrEquiv1 Cert.ReferenceIdeal.dot_S256x4096_S256x4096_S4096x4096_0_0_1_1_n_n 256 rfl rfl).symm b) = ix2 b k := funext fun a => Fin.ext (by
    match a with
    | ⟨0, _⟩ => exact (lhs_wholeDot_0 _ _).trans hb
    | ⟨1, _⟩ => exact lhs_wholeDot_1 _ _)
  have er : Cert.ReferenceIdeal.dot_S256x4096_S256x4096_S4096x4096_0_0_1_1_n_n.rhsIdx (ix2 k l) ((contrEquiv1 Cert.ReferenceIdeal.dot_S256x4096_S256x4096_S4096x4096_0_0_1_1_n_n 256 rfl rfl).symm b) = ix2 b l := funext fun a => Fin.ext (by
    match a with
    | ⟨0, _⟩ => exact (rhs_wholeDot_0 _ _).trans hb
    | ⟨1, _⟩ => exact rhs_wholeDot_1 _ _)
  rw [el, er]

/-- The specification's update at (k, l): the same entry from the weight there and the whole product there. -/
theorem update_apply (cf tn : FVec Ideal Cert.ReferenceIdeal.S256x4096 .f32) (W : FVec Ideal Cert.ReferenceIdeal.S4096x4096 .f32) (k l : Fin 4096) :
    Cert.Spec.update (F := Ideal) cf tn W (ix2 k l) = updEntry (W (ix2 k l)) (∑ b : Fin 256, cf (ix2 b k) * tn (ix2 b l)) := by
  unfold Cert.Spec.update
  rw [subf_apply, mulf_apply]
  show W (ix2 k l) - _ * Ideal.div (Host.dotGeneral (F := Ideal) Cert.ReferenceIdeal.dot_S256x4096_S256x4096_S4096x4096_0_0_1_1_n_n none cf tn (ix2 k l)) _ = _
  rw [wholeDot_apply]
  rfl

end Cert.KernelIdeal.Hand

end
-- ==== Proof.KI.R1Value.lean ====
import proofs.«111062_j11708080849226_1_alg».proof.Proof.KI.R1
import proofs.«111062_j11708080849226_1_alg».proof.Proof.KI.R1ValueA
import proofs.«111062_j11708080849226_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

/-! # Region 1 writes the weight update

Point (n, l) of the 4 × 4 grid stores block (n, l) of the [4096, 4096] result. Entry (p, q) of that block is the
update's entry from the weight block's (p, q) and the product of the coefficient block's column p with the trace
block's column q; those are the weight at (1024 n + p, 1024 l + q) and the columns 1024 n + p and 1024 l + q of the
whole coefficient and trace arrays, so the block is the block of the whole-array update. The sixteen blocks tile the
result. -/

/-- Entry by entry: when the three blocks read the whole arrays where the output index says, the stored value is the
    whole-array update there. -/
theorem pay_eq_update (x0 x1 : Vec Ideal S256x1024 .f32) (x2 : Vec Ideal S1024x1024 .f32)
    (cf tn : FVec Ideal Cert.ReferenceIdeal.S256x4096 .f32) (W : FVec Ideal Cert.ReferenceIdeal.S4096x4096 .f32)
    (j : S1024x1024.Idx) (i : Cert.ReferenceIdeal.S4096x4096.Idx)
    (h0 : ∀ b : Fin 256, x0 (ix2 b ⟨(j 0).val, idx2_lt0 j⟩) = cf (ix2 b ⟨(i 0).val, idx2_lt0 i⟩))
    (h1 : ∀ b : Fin 256, x1 (ix2 b ⟨(j 1).val, idx2_lt1 j⟩) = tn (ix2 b ⟨(i 1).val, idx2_lt1 i⟩))
    (h2 : x2 j = W i) :
    k1_pay1 (F := Ideal) x0 x1 x2 j = Cert.Spec.update (F := Ideal) cf tn W i := by
  obtain ⟨p, q, rfl⟩ : ∃ (p q : Fin 1024), j = ix2 p q := ⟨j 0, j 1, eq_ix2 j⟩
  obtain ⟨k, l, rfl⟩ : ∃ (k l : Fin 4096), i = ix2 k l := ⟨i 0, i 1, eq_ix2 i⟩
  rw [k1_pay1_apply, update_apply, h2]
  exact congrArg _ (Finset.sum_congr rfl fun b _ => by rw [← h0 b, ← h1 b])

theorem zeroOff : (![0, 0] : Fin 2 → Nat) = fun _ => 0 := funext fun a => by
  match a with
  | ⟨0, _⟩ => rfl
  | ⟨1, _⟩ => rfl

/-- The index maps over the grid: the coefficient window sits at block row 0 and at the output's block row as its
    block column; the trace window at block row 0 and the output's block column; the weight window where the output
    is; and the output's block indices are below 4. -/
theorem blockIdx_facts : ∀ t : Fin cfg1.N, win1_0.index t (0 : Fin 2) = 0
    ∧ win1_0.index t (1 : Fin 2) = win1_3.index t (0 : Fin 2)
    ∧ win1_1.index t (0 : Fin 2) = 0
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) ≤ 3 ∧ win1_3.index t (1 : Fin 2) ≤ 3 :=
  (by decide +kernel : ∀ t : Fin grid1.N, _)

/-- Every one of the sixteen blocks is some point's. -/
theorem blockIdx_onto : ∀ (q0 : Fin 4) (q1 : Fin 4), ∃ t : Fin cfg1.N, win1_3.index t = ![q0.val, q1.val] :=
  (by decide +kernel : ∀ (q0 : Fin 4) (q1 : Fin 4), ∃ t : Fin grid1.N, win1_3.index t = ![q0.val, q1.val])

section
variable (V : (c : Dev nD) → (b : Ref sig .tc) → Buf (Elt Ideal) ((c : Thread nD τ).loc b))

/-- What point `t` writes back is block `t` of the whole-array update of the three arrays as the region finds them. -/
theorem flushed1_eq (c : Dev nD) (t : Fin cfg1.N) :
    (dat1 (F := Ideal) V c).flushed 3 t
      = ((cfg1.win 3).blk t).view.read (Elt Ideal) (Cert.Spec.update (F := Ideal) (V c main_v39) (V c main_v27) (V c main_arg4)) := by
  show (cfg1.win 3).cut (grid1.coords t) ((dat1 (F := Ideal) V c).after 3 t) = _
  rw [after1_3]
  unfold out1_3
  rw [View.canon_unit_zero zeroOff]
  simp only [View.ld_unit_zero (S := S256x1024) zeroOff, View.ld_unit_zero (S := S1024x1024) zeroOff]
  obtain ⟨e00, e01, e10, e11, e20, e21, b0, b1⟩ := blockIdx_facts t
  funext j
  show k1_pay1 (F := Ideal) (iblk1 V c 0 t) (iblk1 V c 1 t) (iblk1 V c 2 t) j
    = Cert.Spec.update (F := Ideal) (V c main_v39) (V c main_v27) (V c main_arg4) (((cfg1.win 3).blk t).view.emb j)
  have hj0 : (j 0).val < 1024 := (j 0).isLt
  have hj1 : (j 1).val < 1024 := (j 1).isLt
  refine pay_eq_update _ _ _ _ _ _ _ _ (fun b => ?_) (fun b => ?_) ?_
  · -- the coefficient block's column p is column 1024 n + p of the coefficient array
    show V c main_v39 (((cfg1.win 0).blk t).view.emb (ix2 b ⟨(j 0).val, hj0⟩)) = V c main_v39 _
    refine congrArg _ (funext fun a => Fin.ext ?_)
    match a with
    | ⟨0, _⟩ => show win1_0.index t (0 : Fin 2) * 256 + 1 * b.val = b.val; omega
    | ⟨1, _⟩ => show win1_0.index t (1 : Fin 2) * 1024 + 1 * (j 0).val = win1_3.index t (0 : Fin 2) * 1024 + 1 * (j 0).val; omega
  · -- the trace block's column q is column 1024 l + q of the trace array
    show V c main_v27 (((cfg1.win 1).blk t).view.emb (ix2 b ⟨(j 1).val, hj1⟩)) = V c main_v27 _
    refine congrArg _ (funext fun a => Fin.ext ?_)
    match a with
    | ⟨0, _⟩ => show win1_1.index t (0 : Fin 2) * 256 + 1 * b.val = b.val; omega
    | ⟨1, _⟩ => show win1_1.index t (1 : Fin 2) * 1024 + 1 * (j 1).val = win1_3.index t (1 : Fin 2) * 1024 + 1 * (j 1).val; omega
  · -- the weight block sits where the output block does
    show V c main_arg4 (((cfg1.win 2).blk t).view.emb j) = V c main_arg4 (((cfg1.win 3).blk t).view.emb j)
    refine congrArg _ (funext fun a => Fin.ext ?_)
    match a with
    | ⟨0, _⟩ => show win1_2.index t (0 : Fin 2) * 1024 + 1 * (j 0).val = win1_3.index t (0 : Fin 2) * 1024 + 1 * (j 0).val; omega
    | ⟨1, _⟩ => show win1_2.index t (1 : Fin 2) * 1024 + 1 * (j 1).val = win1_3.index t (1 : Fin 2) * 1024 + 1 * (j 1).val; omega

/-- An index of the result is in point `t`'s block iff each coordinate is in the block's range on its axis. -/
theorem mem_outBlock (t : Fin cfg1.N) (i : S4096x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v40).slice (win1_3.rect t)).set ↔ _
  rw [View.set_slice_whole, Rect.mem_set_unit]
  exact Iff.rfl

/-- Every index of the result is in the block of the point whose block indices are its coordinates' quotients by 1024. -/
theorem outBlocks_cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := blockIdx_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_outBlock]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- After region 1 the result array holds the whole-array update of the coefficient, trace and weight arrays as the
    region finds them. -/
theorem final1 (c : Dev nD) :
    (dat1 (F := Ideal) V c).arrAt 3 cfg1.N = Cert.Spec.update (F := Ideal) (V c main_v39) (V c main_v27) (V c main_arg4) :=
  (dat1 (F := Ideal) V c).arrAt_eq_of_cover 3 _ (fun t _ => flushed1_eq V c t) outBlocks_cover

end

end Cert.KernelIdeal.Hand

end
-- ==== Proof.KI.HostValue.lean ====
/-
  The host operations between the two regions, as whole-array functions of what region 0 left.

  From the spikes and the surrogate derivative that region 0 wrote, the output trace, the scalar activity and the
  row-index vector, the operations build the coefficient array
    coef = (−gate, as a column, along each row) · (trace − picked trace) · surr,
  where gate is the indicator of a positive kept loss under an active input; from the input trace and the input
  they build the new trace 0.95 · in_trace + x. The weights are read by none of them and written by none.
-/
import proofs.«111062_j11708080849226_1_alg».proof.Proof.Gen.KernelIdeal.Launch
import proofs.«111062_j11708080849226_1_alg».proof.Proof.Spec
import Idealize.ShloMosaic.Lib.StableHlo.Run

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]

/-- The buffers' contents after the five stretches of host operations, in program order, from contents `Wa`:
    the index and row-mean arithmetic up to the raw loss, the first selection (loss kept where positive), the
    activity test, the second selection (kept where the input is active), and the gate, the coefficient array and
    the new trace. -/
abbrev afterHost (Wa : Valuation τ sig (Elt F)) : Valuation τ sig (Elt F) :=
  StableHlo.after hostOps1_4 (StableHlo.after hostOps1_3 (StableHlo.after hostOps1_2 (StableHlo.after hostOps1_1 (StableHlo.after hostOps1 Wa))))

/-- The coefficient array is the specification's `coef` of region 0's two outputs, the output trace, the scalar
    activity and the index vector: each operation's result is its function applied to its operands' results, the
    operands traced back to those five arrays; the composed term is `coef` with its named pieces written out
    (the raw loss occurs twice, under the comparison and under the selection; the picked trace twice, in the second
    row mean and in the difference). -/
theorem coef_of (Wa : Valuation τ sig (Elt F)) : afterHost Wa (Proc.devRef .tc main_v39)
    = Cert.Spec.coef (F := F) (Wa (Proc.devRef .tc main_v0_0)) (Wa (Proc.devRef .tc main_v0_1)) (Wa (Proc.devRef .tc main_arg2))
        (Wa (Proc.devRef .tc main_arg5)) (Wa (Proc.devRef .tc main_arg6)) := by
  dsimp only [afterHost, hostOps1, hostOps1_1, hostOps1_2, hostOps1_3, hostOps1_4]
  open StableHlo in after_results_simp
  unfold Cert.Spec.coef Cert.Spec.gate Cert.Spec.lossKept Cert.Spec.lossRaw Cert.Spec.active Cert.Spec.rowMean Cert.Spec.picked
    Cert.Spec.pickIdx Cert.Spec.splatRow
  rfl

/-- The new trace is 0.95 · in_trace + x: a product with the constant array and a sum, over two arrays no host
    operation writes. -/
theorem trace_of (Wa : Valuation τ sig (Elt F)) : afterHost Wa (Proc.devRef .tc main_v27)
    = Cert.Spec.traceNew (F := F) (Wa (Proc.devRef .tc main_arg1)) (Wa (Proc.devRef .tc main_arg0)) := by
  dsimp only [afterHost, hostOps1, hostOps1_1, hostOps1_2, hostOps1_3, hostOps1_4]
  open StableHlo in after_results_simp
  unfold Cert.Spec.traceNew Cert.Spec.splat
  rfl

/-- No host operation writes the weights: they are as region 0 left them. -/
theorem weights_of (Wa : Valuation τ sig (Elt F)) : afterHost Wa (Proc.devRef .tc main_arg4) = Wa (Proc.devRef .tc main_arg4) := by
  dsimp only [afterHost, hostOps1, hostOps1_1, hostOps1_2, hostOps1_3, hostOps1_4]
  open StableHlo in after_results_simp

end Cert.KernelIdeal.Hand

end
-- ==== Proof.KI.Bridge.lean ====
import proofs.«111062_j11708080849226_1_alg».proof.Proof.Gen.KernelIdeal.Launch
import proofs.«111062_j11708080849226_1_alg».proof.Proof.Gen.KernelIdeal.Skeleton
import proofs.«111062_j11708080849226_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«111062_j11708080849226_1_alg».proof.Proof.KI.Run
import proofs.«111062_j11708080849226_1_alg».proof.Proof.KI.R0Value
import proofs.«111062_j11708080849226_1_alg».proof.Proof.KI.R1Value
import proofs.«111062_j11708080849226_1_alg».proof.Proof.KI.HostValue
import proofs.«111062_j11708080849226_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The kernel's result is the specification

Region 1 leaves in the result array the update of the weights by the coefficient array and the new trace it finds
on entry; those are what the host operations between the regions make of region 0's two outputs and the arguments;
region 0's outputs are the spikes and the surrogate of memOut; and every argument is still as launched when it is
read. Composed, the result array holds the specification at the launch contents of the seven arguments. -/

variable (m : (ℓ : Loc nD τ sig) → Buf (Elt Ideal) ℓ) (ρ : Dev nD → PrngReg)

/-- After region 0 an argument that is none of its arrays is as launched. -/
theorem Wr0_arg1 (c : Dev nD) : Wr0 m ρ c (Proc.devRef .tc main_arg1) = m ((c : Thread nD τ).loc main_arg1) :=
  (Wr0_of_ne m ρ c main_arg1 (by decide)).trans rfl
theorem Wr0_arg2 (c : Dev nD) : Wr0 m ρ c (Proc.devRef .tc main_arg2) = m ((c : Thread nD τ).loc main_arg2) :=
  (Wr0_of_ne m ρ c main_arg2 (by decide)).trans rfl
theorem Wr0_arg5 (c : Dev nD) : Wr0 m ρ c (Proc.devRef .tc main_arg5) = m ((c : Thread nD τ).loc main_arg5) :=
  (Wr0_of_ne m ρ c main_arg5 (by decide)).trans rfl
theorem Wr0_arg6 (c : Dev nD) : Wr0 m ρ c (Proc.devRef .tc main_arg6) = m ((c : Thread nD τ).loc main_arg6) :=
  (Wr0_of_ne m ρ c main_arg6 (by decide)).trans rfl
/-- An argument that region 0 reads through an input window is as launched too: an input's array is never written. -/
theorem Wr0_arg0 (c : Dev nD) : Wr0 m ρ c (Proc.devRef .tc main_arg0) = m ((c : Thread nD τ).loc main_arg0) :=
  (Wr0_arr m ρ c 0).trans (((dat0 (VA m ρ) c).arrAt_in 0 rfl _).trans ((A_eq0 (VA m ρ) c 0).trans rfl))
theorem Wr0_arg4 (c : Dev nD) : Wr0 m ρ c (Proc.devRef .tc main_arg4) = m ((c : Thread nD τ).loc main_arg4) :=
  (Wr0_arr m ρ c 1).trans (((dat0 (VA m ρ) c).arrAt_in 1 rfl _).trans ((A_eq0 (VA m ρ) c 1).trans rfl))

/-- Region 0's two outputs after the region: the spikes and the surrogate of memOut at the launch arguments. -/
theorem Wr0_spikes (c : Dev nD) : Wr0 m ρ c (Proc.devRef .tc main_v0_0)
    = Cert.Spec.spikes (F := Ideal) (Cert.Spec.memOut (m ((c : Thread nD τ).loc main_arg0)) (m ((c : Thread nD τ).loc main_arg3)) (m ((c : Thread nD τ).loc main_arg4))) :=
  (Wr0_arr m ρ c 3).trans (final0_3 (VA m ρ) c)
theorem Wr0_surr (c : Dev nD) : Wr0 m ρ c (Proc.devRef .tc main_v0_1)
    = Cert.Spec.surr (F := Ideal) (Cert.Spec.memOut (m ((c : Thread nD τ).loc main_arg0)) (m ((c : Thread nD τ).loc main_arg3)) (m ((c : Thread nD τ).loc main_arg4))) :=
  (Wr0_arr m ρ c 4).trans (final0_4 (VA m ρ) c)

/-- THE KERNEL'S VALUE: what region 1 leaves in the result array is the specification at the launch arguments. -/
theorem kernel_value (c : Dev nD) : (dat1 (F := Ideal) (VB m ρ) c).arrAt 3 cfg1.N
    = Cert.Spec.result (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (final1 (VB m ρ) c).trans ?_
  have hc : VB m ρ c main_v39 = _ := coef_of (Wr0 m ρ c)
  have ht : VB m ρ c main_v27 = _ := trace_of (Wr0 m ρ c)
  have hw : VB m ρ c main_arg4 = _ := weights_of (Wr0 m ρ c)
  rw [hc, ht, hw, Wr0_spikes, Wr0_surr, Wr0_arg0, Wr0_arg1, Wr0_arg2, Wr0_arg4, Wr0_arg5, Wr0_arg6]
  rfl

end Cert.KernelIdeal.Hand

end
-- ==== Proof.RefValue.lean ====
/-
  The reference's result is the specification: its operations, composed in program order over the seven
  argument arrays, are the named pieces of the specification composed the same way.
-/
import proofs.«111062_j11708080849226_1_alg».proof.Proof.Gen.ReferenceIdeal.Run
import proofs.«111062_j11708080849226_1_alg».proof.Proof.Spec

noncomputable section

namespace Cert.RefSide

open Idealize.ShloMosaic Idealize.ShloMosaic.TcCoe Idealize.SL.Sem Cert.ReferenceIdeal Cert.ReferenceIdeal.Gen

variable {F : FTy → Type} [FloatOps F]

set_option maxRecDepth 8192 in
/-- The composed term of the reference's run, read as the specification at the launch contents of the arguments. -/
theorem result_eq (m : (ℓ : Loc nD τ sig) → Buf (Elt F) ℓ) (c : Dev nD) :
    Cert.ReferenceIdeal.Value.res_main_v61 m c
      = Cert.Spec.result (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v61 Cert.Spec.result Cert.Spec.update Cert.Spec.coef Cert.Spec.traceNew Cert.Spec.gate
    Cert.Spec.lossKept Cert.Spec.lossRaw Cert.Spec.active Cert.Spec.rowMean Cert.Spec.picked Cert.Spec.pickIdx Cert.Spec.surr Cert.Spec.spikes
    Cert.Spec.memOut Cert.Spec.splat Cert.Spec.splatRow Cert.Spec.splatSq
  rfl

end Cert.RefSide

end
-- ==== Proof.lean ====
/-
  The certificate of the weight-update kernel against its reference.

  The kernel runs two pipelined regions around a stretch of host operations. Region 0 tiles
  memOut = 0.95 · mem + x · Wᵀ over a 4 × 4 grid: for each block of 1024 output columns it walks the four
  blocks of 1024 input columns, adding one block product per step to an accumulator it keeps between steps (reset at
  the first step), and at the fourth step stores the spike indicator and the surrogate derivative of the
  finished block. The host operations turn those two arrays, the traces and the scalar activity into the
  coefficient array and the new input trace. Region 1 computes, block by block,
  W − 0.01 · ((coefᵀ · traceNew) / 2²⁰). The reference does all of this with whole-array operations.

  Over the extended reals the two agree index by index: a sum over 4096 columns is the sum of its four blocks of
  1024 taken in order (associativity of + alone; no finiteness is used), the indicator read as a signed word after
  zero extension is the indicator read as an unsigned bit, and every other operation is the same operation applied
  in the same order. The frames of both printed forms of the kernel are one text, generic in the float family.
-/
import proofs.«111062_j11708080849226_1_alg».proof.Defs
import proofs.«111062_j11708080849226_1_alg».proof.Proof.Gen.Kernel
import proofs.«111062_j11708080849226_1_alg».proof.Proof.Gen.KernelIdeal
import proofs.«111062_j11708080849226_1_alg».proof.Proof.Gen.ReferenceIdeal
import proofs.«111062_j11708080849226_1_alg».proof.Proof.Gen.Pre_finite_inputs
import proofs.«111062_j11708080849226_1_alg».proof.Proof.Gen.ReferenceIdeal.Run
import proofs.«111062_j11708080849226_1_alg».proof.Proof.K.Run
import proofs.«111062_j11708080849226_1_alg».proof.Proof.KI.Run
import proofs.«111062_j11708080849226_1_alg».proof.Proof.KI.Bridge
import proofs.«111062_j11708080849226_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the specification at the launch arguments, which agree. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.kernel_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSide.result_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
